-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x4 : Shape := ⟨2, ![1048576, 4]⟩
abbrev S4x8192x16 : Shape := ⟨3, ![4, 8192, 16]⟩
abbrev S4x8192 : Shape := ⟨2, ![4, 8192]⟩
abbrev S_ : Shape := ⟨0, ![]⟩

class Facts : Prop where
  bcast_S_S4x8192x16 : S_.BroadcastsInDim S4x8192x16 (![] : Fin 0 → Fin S4x8192x16.rank)
  reducesTo_S4x8192x16_S_d0_1_2 : S4x8192x16.ReducesTo [0, 1, 2] S_
  h_S_ : 0 < S_.numel
  bcast_S_S4x8192 : S_.BroadcastsInDim S4x8192 (![] : Fin 0 → Fin S4x8192.rank)
  reducesTo_S4x8192_S_d0_1 : S4x8192.ReducesTo [0, 1] S_
  bcast_S_S1048576x4 : S_.BroadcastsInDim S1048576x4 (![] : Fin 0 → Fin S1048576x4.rank)
  reducesTo_S1048576x4_S_d0_1 : S1048576x4.ReducesTo [0, 1] S_

variable [Facts]

def fn_part1 {F : FTy → Type} [FloatOps F] (main_arg1 : IVec S1048576x4 32) (main_v15 : IVec S_ 1) (main_c_5 : IVec S_ 32) : IVec S_ 1 :=
  let main_v16 : IVec S1048576x4 32 := broadcastInDim S1048576x4 ![] bcast_S_S1048576x4 main_c_5
  let main_v17 : IVec S1048576x4 1 := cmpi .sge main_arg1 main_v16
  let main_c_6 : IVec S_ 32 := constantI S_ 32 8192#32
  let main_v18 : IVec S1048576x4 32 := broadcastInDim S1048576x4 ![] bcast_S_S1048576x4 main_c_6
  let main_v19 : IVec S1048576x4 1 := cmpi .slt main_arg1 main_v18
  let main_v20 : IVec S1048576x4 1 := andi main_v17 main_v19
  let main_c_7 : IVec S_ 1 := constantI S_ 1 1#1
  let main_v21 : IVec S_ 1 := (fun x v => Host.reduce IntOp.andi x v reducesTo_S1048576x4_S_d0_1 h_S_) main_v20 main_c_7
  let main_v22 : IVec S_ 1 := andi main_v15 main_v21
  main_v22

def fn {F : FTy → Type} [FloatOps F] (main_arg0 : IVec S1048576x4 32) (main_arg1 : IVec S1048576x4 32) (main_arg2 : FVec F S4x8192x16 .f32) (main_arg3 : FVec F S4x8192 .f32) : IVec S_ 1 :=
  let main_v0 : FVec F S4x8192x16 .f32 := Host.absf main_arg2
  let main_cst : FVec F S_ .f32 := constant S_ .f32 0x7F800000#32
  let main_v1 : FVec F S4x8192x16 .f32 := broadcastInDim S4x8192x16 ![] bcast_S_S4x8192x16 main_cst
  let main_v2 : IVec S4x8192x16 1 := cmpf .olt main_v0 main_v1
  let main_c : IVec S_ 1 := constantI S_ 1 1#1
  let main_v3 : IVec S_ 1 := (fun x v => Host.reduce IntOp.andi x v reducesTo_S4x8192x16_S_d0_1_2 h_S_) main_v2 main_c
  let main_v4 : FVec F S4x8192 .f32 := Host.absf main_arg3
  let main_cst_0 : FVec F S_ .f32 := constant S_ .f32 0x7F800000#32
  let main_v5 : FVec F S4x8192 .f32 := broadcastInDim S4x8192 ![] bcast_S_S4x8192 main_cst_0
  let main_v6 : IVec S4x8192 1 := cmpf .olt main_v4 main_v5
  let main_c_1 : IVec S_ 1 := constantI S_ 1 1#1
  let main_v7 : IVec S_ 1 := (fun x v => Host.reduce IntOp.andi x v reducesTo_S4x8192_S_d0_1 h_S_) main_v6 main_c_1
  let main_v8 : IVec S_ 1 := andi main_v3 main_v7
  let main_c_2 : IVec S_ 32 := constantI S_ 32 0#32
  let main_v9 : IVec S1048576x4 32 := broadcastInDim S1048576x4 ![] bcast_S_S1048576x4 main_c_2
  let main_v10 : IVec S1048576x4 1 := cmpi .sge main_arg0 main_v9
  let main_c_3 : IVec S_ 32 := constantI S_ 32 8192#32
  let main_v11 : IVec S1048576x4 32 := broadcastInDim S1048576x4 ![] bcast_S_S1048576x4 main_c_3
  let main_v12 : IVec S1048576x4 1 := cmpi .slt main_arg0 main_v11
  let main_v13 : IVec S1048576x4 1 := andi main_v10 main_v12
  let main_c_4 : IVec S_ 1 := constantI S_ 1 1#1
  let main_v14 : IVec S_ 1 := (fun x v => Host.reduce IntOp.andi x v reducesTo_S1048576x4_S_d0_1 h_S_) main_v13 main_c_4
  let main_v15 : IVec S_ 1 := andi main_v8 main_v14
  let main_c_5 : IVec S_ 32 := constantI S_ 32 0#32
  fn_part1 (F := F) main_arg1 main_v15 main_c_5
-- ==== Kernel.lean ====
abbrev S1048576x4 : Shape := ⟨2, ![1048576, 4]⟩
abbrev S4x8192x16 : Shape := ⟨3, ![4, 8192, 16]⟩
abbrev S4x8192 : Shape := ⟨2, ![4, 8192]⟩
abbrev S4x8192x1 : Shape := ⟨3, ![4, 8192, 1]⟩
abbrev S4x8192x17 : Shape := ⟨3, ![4, 8192, 17]⟩
abbrev S4x256x32x17 : Shape := ⟨4, ![4, 256, 32, 17]⟩
abbrev S4x256x17x32 : Shape := ⟨4, ![4, 256, 17, 32]⟩
abbrev S4x256x544 : Shape := ⟨3, ![4, 256, 544]⟩
abbrev S4x1048576 : Shape := ⟨2, ![4, 1048576]⟩
abbrev S1048576 : Shape := ⟨1, ![1048576]⟩
abbrev S4x512 : Shape := ⟨2, ![4, 512]⟩
abbrev S512 : Shape := ⟨1, ![512]⟩
abbrev S512x256 : Shape := ⟨2, ![512, 256]⟩
abbrev S512x32 : Shape := ⟨2, ![512, 32]⟩
abbrev S1x512 : Shape := ⟨2, ![1, 512]⟩
abbrev S512x1 : Shape := ⟨2, ![512, 1]⟩
abbrev S1x256x544 : Shape := ⟨3, ![1, 256, 544]⟩
abbrev S256x544 : Shape := ⟨2, ![256, 544]⟩
abbrev S512x544 : Shape := ⟨2, ![512, 544]⟩
abbrev S512x17x32 : Shape := ⟨3, ![512, 17, 32]⟩
abbrev S512x1x32 : Shape := ⟨3, ![512, 1, 32]⟩
abbrev S512x17 : Shape := ⟨2, ![512, 17]⟩
abbrev S512x16 : Shape := ⟨2, ![512, 16]⟩

abbrev nBuf : Space → Nat
  | .hbm => 14
  | .vmem => 7
  | .smem => 0
  | _ => 0

abbrev bufTy : (tb : Table) → Fin (tcTables nBuf tb) → BufTy
  | .hbm, ⟨0, _⟩ => ⟨S1048576x4, .i32⟩
  | .hbm, ⟨1, _⟩ => ⟨S1048576x4, .i32⟩
  | .hbm, ⟨2, _⟩ => ⟨S4x8192x16, .f32⟩
  | .hbm, ⟨3, _⟩ => ⟨S4x8192, .f32⟩
  | .hbm, ⟨4, _⟩ => ⟨S4x8192, .f32⟩
  | .hbm, ⟨5, _⟩ => ⟨S4x8192x1, .f32⟩
  | .hbm, ⟨6, _⟩ => ⟨S4x8192x17, .f32⟩
  | .hbm, ⟨7, _⟩ => ⟨S4x256x32x17, .f32⟩
  | .hbm, ⟨8, _⟩ => ⟨S4x256x17x32, .f32⟩
  | .hbm, ⟨9, _⟩ => ⟨S4x256x544, .f32⟩
  | .hbm, ⟨10, _⟩ => ⟨S4x256x544, .bf16⟩
  | .hbm, ⟨11, _⟩ => ⟨S4x1048576, .i32⟩
  | .hbm, ⟨12, _⟩ => ⟨S4x1048576, .i32⟩
  | .hbm, ⟨13, _⟩ => ⟨S1048576, .f32⟩
  | .local _ .vmem, ⟨0, _⟩ => ⟨S4x512, .i32⟩
  | .local _ .vmem, ⟨1, _⟩ => ⟨S4x512, .i32⟩
  | .local _ .vmem, ⟨2, _⟩ => ⟨S4x512, .i32⟩
  | .local _ .vmem, ⟨3, _⟩ => ⟨S4x512, .i32⟩
  | .local _ .vmem, ⟨4, _⟩ => ⟨S4x256x544, .bf16⟩
  | .local _ .vmem, ⟨5, _⟩ => ⟨S512, .f32⟩
  | .local _ .vmem, ⟨6, _⟩ => ⟨S512, .f32⟩
  | _, _ => ⟨S1048576x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2048], ![false]⟩

@[reducible] def k0_t1_loop : Scf.Loop 32 :=
  let c0_i32 : BitVec 32 := 0#32
  let c4_i32 : BitVec 32 := 4#32
  let v3 : BitVec 32 := Scalar.addi c0_i32 c4_i32
  let c1_i32 : BitVec 32 := 1#32
  ⟨c0_i32, v3, c1_i32⟩
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let v6 : Index := Scalar.indexCast arg5
  let c0_1 : Index := 0#32
  ![v6.toNat, 0]
def k0_off2 (k0_t1 : Fin k0_t1_loop.trips) : Fin 3 → Nat :=
  let c0_i32 : BitVec 32 := 0#32
  let c1_i32 : BitVec 32 := 1#32
  let arg5 : BitVec 32 := Scf.iv c0_i32 c1_i32 k0_t1
  let v42 : Index := Scalar.indexCast arg5
  let c0_5 : Index := 0#32
  let c0_6 : Index := 0#32
  ![v42.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S4x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x544 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S4x8192_S4x8192x1_0_1 : S4x8192.BroadcastsInDim S4x8192x1 (![0, 1] : Fin 2 → Fin S4x8192x1.rank)
  concatenates_S4x8192x16_S4x8192x1_S4x8192x17_d2 : Shape.Concatenates [S4x8192x16, S4x8192x1] S4x8192x17 2
  shapeCasts_S4x8192x17_S4x256x32x17 : S4x8192x17.ShapeCasts S4x256x32x17
  transposes_S4x256x32x17_S4x256x17x32_0_1_3_2 : S4x256x32x17.Transposes [0, 1, 3, 2] S4x256x17x32
  shapeCasts_S4x256x17x32_S4x256x544 : S4x256x17x32.ShapeCasts S4x256x544
  bitsLt_bf16_f32 : FTy.bits .bf16 < FTy.bits .f32
  transposes_S1048576x4_S4x1048576_1_0 : S1048576x4.Transposes [1, 0] S4x1048576
  iota_S512x256_d1_w32 : S512x256.Iotas .tc 32 [1]
  iota_S512x32_d1_w32 : S512x32.Iotas .tc 32 [1]
  h_S1x512 : 0 < S1x512.numel
  shapeCasts_S1x512_S512 : S1x512.ShapeCasts S512
  shapeCasts_S512_S512x1 : S512.ShapeCasts S512x1
  broadcasts_S512x1_S512x256 : S512x1.Broadcasts S512x256
  natLt_1_32 : 1 < 32
  broadcasts_S512x1_S512x32 : S512x1.Broadcasts S512x32
  h_S1x256x544 : 0 < S1x256x544.numel
  shapeCasts_S1x256x544_S256x544 : S1x256x544.ShapeCasts S256x544
  shapeCasts_S512x544_S512x17x32 : S512x544.ShapeCasts S512x17x32
  shapeCasts_S512x32_S512x1x32 : S512x32.ShapeCasts S512x1x32
  broadcasts_S512x1x32_S512x17x32 : S512x1x32.Broadcasts S512x17x32
  reduces_S512x17x32_S512x17 : S512x17x32.Reduces [2] S512x17
  slices_S512x17_o0_0_S512x16 : S512x17.Slices ![0, 0] S512x16
  reduces_S512x16_S512 : S512x16.Reduces [1] S512
  slices_S512x17_o0_16_S512x1 : S512x17.Slices ![0, 16] S512x1
  shapeCasts_S512x1_S512 : S512x1.ShapeCasts S512
  inb_S512_S512_0 : ∀ a, (![0] : Fin 1 → Nat) a + S512.size a ≤ S512.size a
  h_S512 : 0 < S512.numel
  dot_S512x256_S256x544_S512x544_1_0_0_1_n_n_wf : DotDims.WF S512x256 S256x544 S512x544 [1] [0] [0] [1] [] []
  hrank0 : 0 < grid0.rank
  k0_t1_ok : k0_t1_loop.OK
  k0_off1_inb : ∀ k0_t1 : Fin k0_t1_loop.trips, ∀ a, (k0_off1 k0_t1) a + S1x512.size a ≤ S4x512.size a
  k0_off2_inb : ∀ k0_t1 : Fin k0_t1_loop.trips, ∀ a, (k0_off2 k0_t1) a + S1x256x544.size a ≤ S4x256x544.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512.size a ≤ S4x1048576.size a
  hwx0_0 : ∀ i : grid0.Coords, EltTy.bits .i32 = 32 ∨ (Rect.block (s := S4x1048576) S4x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512.size a ≤ S4x1048576.size a
  hwx0_1 : ∀ i : grid0.Coords, EltTy.bits .i32 = 32 ∨ (Rect.block (s := S4x1048576) S4x512.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x256x544.size a ≤ S4x256x544.size a
  hwx0_2 : ∀ i : grid0.Coords, EltTy.bits .bf16 = 32 ∨ (Rect.block (s := S4x256x544) S4x256x544.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S1048576.size a
  hwx0_3 : ∀ i : grid0.Coords, EltTy.bits .f32 = 32 ∨ (Rect.block (s := S1048576) S512.size (cc0_transform_3 i) (hinb0_3 i)).WholeWords (EltTy.packing .f32)

variable [Facts₀]

def dot_S512x256_S256x544_S512x544_1_0_0_1_n_n : DotDims S512x256 S256x544 S512x544 where
  lhsContracting := [1]
  rhsContracting := [0]
  lhsNonContracting := [0]
  rhsNonContracting := [1]
  lhsBatch := []
  rhsBatch := []
  wf := dot_S512x256_S256x544_S512x544_1_0_0_1_n_n_wf

abbrev win0_0 : Pipeline.Window sig grid0 :=
  Pipeline.Window.ofSpec (Memref.whole main_v7) S4x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S4x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S4x256x544.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1048576x4 : Shape := ⟨2, ![1048576, 4]⟩
abbrev S4x8192x16 : Shape := ⟨3, ![4, 8192, 16]⟩
abbrev S4x8192 : Shape := ⟨2, ![4, 8192]⟩
abbrev S4x8192x8192 : Shape := ⟨3, ![4, 8192, 8192]⟩
abbrev S8192 : Shape := ⟨1, ![8192]⟩
abbrev S_ : Shape := ⟨0, ![]⟩
abbrev S8192x1 : Shape := ⟨2, ![8192, 1]⟩
abbrev S8192x2 : Shape := ⟨2, ![8192, 2]⟩
abbrev S4 : Shape := ⟨1, ![4]⟩
abbrev S1x4 : Shape := ⟨2, ![1, 4]⟩
abbrev S1048576x4x1 : Shape := ⟨3, ![1048576, 4, 1]⟩
abbrev S1048576x4x3 : Shape := ⟨3, ![1048576, 4, 3]⟩
abbrev S1048576 : Shape := ⟨1, ![1048576]⟩

abbrev nBuf : Space → Nat
  | .hbm => 56
  | .vmem => 0
  | .smem => 0
  | _ => 0

abbrev bufTy : (tb : Table) → Fin (tcTables nBuf tb) → BufTy
  | .hbm, ⟨0, _⟩ => ⟨S1048576x4, .i32⟩
  | .hbm, ⟨1, _⟩ => ⟨S1048576x4, .i32⟩
  | .hbm, ⟨2, _⟩ => ⟨S4x8192x16, .f32⟩
  | .hbm, ⟨3, _⟩ => ⟨S4x8192, .f32⟩
  | .hbm, ⟨4, _⟩ => ⟨S4x8192x8192, .f32⟩
  | .hbm, ⟨5, _⟩ => ⟨S8192, .i32⟩
  | .hbm, ⟨6, _⟩ => ⟨S4x8192, .f32⟩
  | .hbm, ⟨7, _⟩ => ⟨S_, .i32⟩
  | .hbm, ⟨8, _⟩ => ⟨S8192, .i32⟩
  | .hbm, ⟨9, _⟩ => ⟨S8192, .i1⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S8192, .i32⟩
  | .hbm, ⟨14, _⟩ => ⟨S_, .i32⟩
  | .hbm, ⟨15, _⟩ => ⟨S8192, .i32⟩
  | .hbm, ⟨16, _⟩ => ⟨S8192, .i1⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S8192, .i32⟩
  | .hbm, ⟨21, _⟩ => ⟨S8192x1, .i32⟩
  | .hbm, ⟨22, _⟩ => ⟨S8192x1, .i32⟩
  | .hbm, ⟨23, _⟩ => ⟨S8192x2, .i32⟩
  | .hbm, ⟨24, _⟩ => ⟨S4x8192x8192, .f32⟩
  | .hbm, ⟨25, _⟩ => ⟨S4, .i32⟩
  | .hbm, ⟨26, _⟩ => ⟨S1x4, .i32⟩
  | .hbm, ⟨27, _⟩ => ⟨S_, .i32⟩
  | .hbm, ⟨28, _⟩ => ⟨S1x4, .i32⟩
  | .hbm, ⟨29, _⟩ => ⟨S1x4, .i1⟩
  | .hbm, ⟨30, _⟩ => ⟨S_, .i32⟩
  | .hbm, ⟨31, _⟩ => ⟨S1x4, .i32⟩
  | .hbm, ⟨32, _⟩ => ⟨S1x4, .i32⟩
  | .hbm, ⟨33, _⟩ => ⟨S1x4, .i32⟩
  | .hbm, ⟨34, _⟩ => ⟨S_, .i32⟩
  | .hbm, ⟨35, _⟩ => ⟨S1048576x4, .i32⟩
  | .hbm, ⟨36, _⟩ => ⟨S1048576x4, .i1⟩
  | .hbm, ⟨37, _⟩ => ⟨S_, .i32⟩
  | .hbm, ⟨38, _⟩ => ⟨S1048576x4, .i32⟩
  | .hbm, ⟨39, _⟩ => ⟨S1048576x4, .i32⟩
  | .hbm, ⟨40, _⟩ => ⟨S1048576x4, .i32⟩
  | .hbm, ⟨41, _⟩ => ⟨S_, .i32⟩
  | .hbm, ⟨42, _⟩ => ⟨S1048576x4, .i32⟩
  | .hbm, ⟨43, _⟩ => ⟨S1048576x4, .i1⟩
  | .hbm, ⟨44, _⟩ => ⟨S_, .i32⟩
  | .hbm, ⟨45, _⟩ => ⟨S1048576x4, .i32⟩
  | .hbm, ⟨46, _⟩ => ⟨S1048576x4, .i32⟩
  | .hbm, ⟨47, _⟩ => ⟨S1048576x4, .i32⟩
  | .hbm, ⟨48, _⟩ => ⟨S1048576x4, .i32⟩
  | .hbm, ⟨49, _⟩ => ⟨S1048576x4x1, .i32⟩
  | .hbm, ⟨50, _⟩ => ⟨S1048576x4x1, .i32⟩
  | .hbm, ⟨51, _⟩ => ⟨S1048576x4x1, .i32⟩
  | .hbm, ⟨52, _⟩ => ⟨S1048576x4x3, .i32⟩
  | .hbm, ⟨53, _⟩ => ⟨S1048576x4, .f32⟩
  | .hbm, ⟨54, _⟩ => ⟨S_, .f32⟩
  | .hbm, ⟨55, _⟩ => ⟨S1048576, .f32⟩
  | _, _ => ⟨S1048576x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_5 : Ref sig .tc := ⟨.hbm, 34, rfl⟩
abbrev main_v24 : Ref sig .tc := ⟨.hbm, 35, rfl⟩
abbrev main_v25 : Ref sig .tc := ⟨.hbm, 36, rfl⟩
abbrev main_c_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_7 : Ref sig .tc := ⟨.hbm, 41, rfl⟩
abbrev main_v29 : Ref sig .tc := ⟨.hbm, 42, rfl⟩
abbrev main_v30 : Ref sig .tc := ⟨.hbm, 43, rfl⟩
abbrev main_c_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst : Ref sig .tc := ⟨.hbm, 54, rfl⟩
abbrev main_v40 : Ref sig .tc := ⟨.hbm, 55, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  bcast_S4_S1x4_1 : S4.BroadcastsInDim S1x4 (![1] : Fin 1 → Fin S1x4.rank)
  bcast_S_S1x4 : S_.BroadcastsInDim S1x4 (![] : Fin 0 → Fin S1x4.rank)
  bcast_S_S1048576x4 : S_.BroadcastsInDim S1048576x4 (![] : Fin 0 → Fin S1048576x4.rank)
  bcast_S1x4_S1048576x4_0_1 : S1x4.BroadcastsInDim S1048576x4 (![0, 1] : Fin 2 → Fin S1048576x4.rank)
  bcast_S1048576x4_S1048576x4x1_0_1 : S1048576x4.BroadcastsInDim S1048576x4x1 (![0, 1] : Fin 2 → Fin S1048576x4x1.rank)
  concatenates_S1048576x4x1_S1048576x4x1_S1048576x4x1_S1048576x4x3_d2 : Shape.Concatenates [S1048576x4x1, S1048576x4x1, S1048576x4x1] S1048576x4x3 2
  reducesTo_S1048576x4_S1048576_d1 : S1048576x4.ReducesTo [1] S1048576
  h_S_ : 0 < S_.numel
  dot_S4x8192x16_S4x8192x16_S4x8192x8192_2_2_1_1_0_0_wf : DotDims.WF S4x8192x16 S4x8192x16 S4x8192x8192 [2] [2] [1] [1] [0] [0]
  scatter_S4x8192x8192_S8192x2_S4x8192_0_12_12_1_wf : ScatterDims.WF S4x8192x8192 S8192x2 S4x8192 [0] [1, 2] [1, 2] 1
  gather_S4x8192x8192_S1048576x4x3_S1048576x4_n_012_n_n_012_2_111_wf : GatherDims.WF S4x8192x8192 S1048576x4x3 S1048576x4 [] [0, 1, 2] [] [0, 1, 2] [] 2 ![1, 1, 1]

variable [Facts₀]

def dot_S4x8192x16_S4x8192x16_S4x8192x8192_2_2_1_1_0_0 : DotDims S4x8192x16 S4x8192x16 S4x8192x8192 where
  lhsContracting := [2]
  rhsContracting := [2]
  lhsNonContracting := [1]
  rhsNonContracting := [1]
  lhsBatch := [0]
  rhsBatch := [0]
  wf := dot_S4x8192x16_S4x8192x16_S4x8192x8192_2_2_1_1_0_0_wf
def scatter_S4x8192x8192_S8192x2_S4x8192_0_12_12_1 : ScatterDims S4x8192x8192 S8192x2 S4x8192 where
  updateWindowDims := [0]
  insertedWindowDims := [1, 2]
  scatterDimsToOperandDims := [1, 2]
  indexVectorDim := 1
  wf := scatter_S4x8192x8192_S8192x2_S4x8192_0_12_12_1_wf
def gather_S4x8192x8192_S1048576x4x3_S1048576x4_n_012_n_n_012_2_111 : GatherDims S4x8192x8192 S1048576x4x3 S1048576x4 where
  offsetDims := []
  collapsedSliceDims := [0, 1, 2]
  operandBatchingDims := []
  startIndicesBatchingDims := []
  startIndexMap := [0, 1, 2]
  indexVectorDim := 2
  sliceSizes := ![1, 1, 1]
  wf := gather_S4x8192x8192_S1048576x4x3_S1048576x4_n_012_n_n_012_2_111_wf

class Facts : Prop extends Facts₀ where

variable [Facts]
-- ==== Proof.TripDef.lean ====
/-
  One trip of the kernel's column loop as a pure function.

  Trip `k` reads row `k` of the two index blocks and slab `k` of the table block, and adds to the carried vector, per pair,
  the inner product of the two gathered factor rows plus the gathered variance where the two categories coincide.
  Here the trip is only NAMED: the body's arithmetic over those three loads.
-/
import proofs.«428445_j32238024524411_3_alg».proof.Proof.Gen.KernelIdeal.Skeleton
import Idealize.ShloMosaic.Lib.Pipeline.FrameBody

noncomputable section

namespace Cert.KernelIdeal.Trip

open Cert.KernelIdeal Cert.KernelIdeal.Gen Idealize.ShloMosaic

variable {F : FTy → Type} [FloatOps F]

/-- Row `k` of an index block (columns × pairs), as the body loads it. -/
def rowI (k : Fin k0_t1_loop.trips) (x : Vec F S4x512 .i32) : Vec F S1x512 .i32 :=
  View.ld x (Rect.unit (s := S4x512) (k0_off1 k) S1x512.size (Facts₀.k0_off1_inb k))

/-- Slab `k` of the table block, as the body loads it. -/
def rowT (k : Fin k0_t1_loop.trips) (x2 : Vec F S4x256x544 .bf16) : Vec F S1x256x544 .bf16 :=
  View.ld x2 (Rect.unit (s := S4x256x544) (k0_off2 k) S1x256x544.size (Facts₀.k0_off2_inb k))

/-- What trip `k` yields from the carried vector `acc`, the two index blocks and the table block. -/
def tripF (v0 : IVec S512x256 32) (v1 : IVec S512x32 32) (x0 x1 : Vec F S4x512 .i32) (x2 : Vec F S4x256x544 .bf16)
    (k : Fin k0_t1_loop.trips) (acc : FVec F S512 .f32) : FVec F S512 .f32 :=
  k0_pay2 acc (k0_pay3 (rowI k x0)) (k0_pay4 (rowI k x1)) (k0_pay6 v0 (rowI k x1) (rowT k x2))
    (k0_pay7 v0 v1 (rowI k x0) (rowT k x2)) (k0_pay8 v1 (rowI k x1))

end Cert.KernelIdeal.Trip

end
-- ==== Proof.LoopFold.lean ====
/-
  The column loop as a fold of its trips, and what the body stores.

  The body carries a vector of 512 partial sums through four trips, one per column, starting from zero, and stores the
  last one as its whole output block. Trip `k` turns the carried vector `acc` into `tripF … k acc` (TripDef), so the block is
  the four-fold composition `accAt … 4`.
-/
import proofs.«428445_j32238024524411_3_alg».proof.Proof.Gen.KernelIdeal.Frame
import proofs.«428445_j32238024524411_3_alg».proof.Proof.TripDef
import Idealize.ShloMosaic.Lib.Pipeline.Value

noncomputable section

namespace Cert.KernelIdeal.Trip

open Cert.KernelIdeal Cert.KernelIdeal.Gen Idealize.ShloMosaic Idealize.ShloMosaic.TcCoe Idealize.ShloMosaic.Tactic
open Idealize.SL Idealize.SL.Sem

variable {F : FTy → Type} [FloatOps F]

/-- The carried vector before trip `n`: `init` before the first, each trip applied in turn, unchanged past the last. -/
def accAt (v0 : IVec S512x256 32) (v1 : IVec S512x32 32) (x0 x1 : Vec F S4x512 .i32) (x2 : Vec F S4x256x544 .bf16)
    (init : FVec F S512 .f32) : ℕ → FVec F S512 .f32
  | 0 => init
  | n + 1 => if h : n < k0_t1_loop.trips then tripF v0 v1 x0 x1 x2 ⟨n, h⟩ (accAt v0 v1 x0 x1 x2 init n)
      else accAt v0 v1 x0 x1 x2 init n

/-- One trip of the loop, on staging buffers that hold the blocks `x0`, `x1`, `x2`, yields the named trip function of them. -/
theorem tripR_eq (𝒱 : Variants) (c : Dev nD) (bd : Option 𝒱.V) (i : grid0.Coords) (arg1 : Memref sig .tc .vmem S4x512 .i32) (harg1 : arg1.IsWhole) (arg2 : Memref sig .tc .vmem S4x512 .i32) (harg2 : arg2.IsWhole) (arg3 : Memref sig .tc .vmem S4x256x544 .bf16) (harg3 : arg3.IsWhole) (arg4 : Memref sig .tc .vmem S512 .f32) (harg4 : arg4.IsWhole) (v0 : IVec S512x256 32) (v1 : IVec S512x32 32)
    (x0 x1 : Vec F S4x512 .i32) (x2 : Vec F S4x256x544 .bf16) (k : Fin k0_t1_loop.trips) (acc : FVec F S512 .f32) :
    tripR_k0_t1 (F := F) 𝒱 c bd i arg1 harg1 arg2 harg2 arg3 harg3 arg4 harg4 v0 v1 (harg1.unread x0) (harg2.unread x1) (harg3.unread x2) k acc
      = tripF v0 v1 x0 x1 x2 k acc := by
  unfold tripR_k0_t1 trip_k0_t1
  dsimp only
  sl_unfold_words
  simp only [View.readAt_eq_ld, harg1.read_unread, harg2.read_unread, harg3.read_unread]
  rfl

/-- The loop's carried vector before trip `n` is the fold of the trip function. -/
theorem st_eq (𝒱 : Variants) (c : Dev nD) (bd : Option 𝒱.V) (i : grid0.Coords) (arg1 : Memref sig .tc .vmem S4x512 .i32) (harg1 : arg1.IsWhole) (arg2 : Memref sig .tc .vmem S4x512 .i32) (harg2 : arg2.IsWhole) (arg3 : Memref sig .tc .vmem S4x256x544 .bf16) (harg3 : arg3.IsWhole) (arg4 : Memref sig .tc .vmem S512 .f32) (harg4 : arg4.IsWhole) (v0 : IVec S512x256 32) (v1 : IVec S512x32 32)
    (x0 x1 : Vec F S4x512 .i32) (x2 : Vec F S4x256x544 .bf16) (init : FVec F S512 .f32) (n : ℕ) :
    st_k0_t1 (F := F) 𝒱 c bd i arg1 harg1 arg2 harg2 arg3 harg3 arg4 harg4 v0 v1 (harg1.unread x0) (harg2.unread x1) (harg3.unread x2) init n
      = accAt v0 v1 x0 x1 x2 init n := by
  induction n with
  | zero => rfl
  | succ n ih =>
    rw [st_k0_t1.eq_2, accAt, ih]
    unfold st_k0_t1Step
    split
    · rw [tripR_eq]
    · rfl

/-- The loop runs four trips. -/
theorem trips_eq : Scf.trips (0#32) (Scalar.addi 0#32 4#32) 1#32 = 4 := by decide

/-- WHAT THE BODY STORES: the carried vector after the four trips, from zero, over the point's three input blocks. -/
theorem out_eq (c : Dev nD) (i : grid0.Coords) (arg1 : Memref sig .tc .vmem S4x512 .i32) (harg1 : arg1.IsWhole) (arg2 : Memref sig .tc .vmem S4x512 .i32) (harg2 : arg2.IsWhole) (arg3 : Memref sig .tc .vmem S4x256x544 .bf16) (harg3 : arg3.IsWhole) (arg4 : Memref sig .tc .vmem S512 .f32) (harg4 : arg4.IsWhole)
    (x0 x1 : Vec F S4x512 .i32) (x2 : Vec F S4x256x544 .bf16) :
    out0_A_3 c i arg1 harg1 arg2 harg2 arg3 harg3 arg4 harg4 x0 x1 x2
      = accAt (iota .tc S512x256 32 [1] Facts₀.iota_S512x256_d1_w32) (iota .tc S512x32 32 [1] Facts₀.iota_S512x32_d1_w32)
          x0 x1 x2 (k0_pay1 (F := F)) 4 := by
  unfold out0_A_3
  rw [View.read_writes_eq_canon _ _ _ (cover0_A_3 c i arg1 harg1 arg2 harg2 arg3 harg3 arg4 harg4 x0 x1 x2)]
  unfold kernelRun0_A
  dsimp only
  sl_unfold_words
  rw [View.canon_unit_zero (funext fun a => by fin_cases a; rfl)]
  rw [st_eq, trips_eq]

end Cert.KernelIdeal.Trip

end
-- ==== Proof.TripValue.lean ====
/-
  One trip of the column loop, read at a pair: the carried value plus the inner product of the two gathered factor rows,
  plus the gathered variance where the two categories are the same word.
-/
import proofs.«428445_j32238024524411_3_alg».proof.Proof.TripDef
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Trip

open Cert.KernelIdeal Cert.KernelIdeal.Gen Idealize.ShloMosaic Idealize.ShloMosaic.ValueIdx

/-- Entry of the table block for column `k`, category `n` (high part `n / 32`, low part `n % 32`), channel `r`
    (lane `r·32 + n % 32`). -/
def tabAt (x2 : S4x256x544.Idx → EReal) (k : Fin 4) (n r : ℕ) : EReal :=
  x2 (ix3 k (Fin.ofNat 256 (n / 32)) (Fin.ofNat 544 (r * 32 + n % 32)))

/-! ### Words: the high and the low part of a category below 8192 -/

theorem msb_false_of_lt (w : BitVec 32) (h : w.toNat < 8192) : w.msb = false := by
  rw [BitVec.msb_eq_false_iff_two_mul_lt]; omega

/-- The arithmetic shift right by 5 of a word below 8192 is its quotient by 32. -/
theorem shr5_toNat (w : BitVec 32) (h : w.toNat < 8192) : (IntOp.shrsi .vector w 5#32).toNat = w.toNat / 32 := by
  unfold IntOp.shrsi
  rw [if_pos (by decide)]
  show (w.sshiftRight 5).toNat = _
  rw [BitVec.sshiftRight_eq_of_msb_false (msb_false_of_lt w h), BitVec.toNat_ushiftRight, Nat.shiftRight_eq_div_pow]

/-- The low five bits of a word are its remainder by 32. -/
theorem and31_toNat (w : BitVec 32) : (IntOp.andi w 31#32).toNat = w.toNat % 32 := by
  unfold IntOp.andi
  rw [BitVec.toNat_and]
  exact Nat.and_two_pow_sub_one_eq_mod w.toNat 5

/-- A lane counter below 256 equals the high part exactly at the quotient. -/
theorem hi_iff (x : BitVec 32) (hx : x.toNat < 8192) (c : Fin 256) :
    BitVec.ofNat 32 c.val = IntOp.shrsi .vector x 5#32 ↔ c = Fin.ofNat 256 (x.toNat / 32) := by
  rw [← BitVec.toNat_inj, shr5_toNat x hx, BitVec.toNat_ofNat, Fin.ext_iff]
  have hc := c.isLt
  have e : (Fin.ofNat 256 (x.toNat / 32)).val = (x.toNat / 32) % 256 := rfl
  rw [e]; omega

/-- A lane counter below 32 equals the low part exactly at the remainder. -/
theorem lo_iff (x : BitVec 32) (l : Fin 32) :
    BitVec.ofNat 32 l.val = IntOp.andi x 31#32 ↔ l = Fin.ofNat 32 (x.toNat % 32) := by
  rw [← BitVec.toNat_inj, and31_toNat x, BitVec.toNat_ofNat, Fin.ext_iff]
  have hl := l.isLt
  have e : (Fin.ofNat 32 (x.toNat % 32)).val = (x.toNat % 32) % 32 := rfl
  rw [e]; omega

/-- The comparison bit, widened to a word and converted, is the 0/1 indicator of equality. -/
theorem onehot (a b : BitVec 32) :
    (FloatOps.sitofp (F := Ideal) .f32 ((IntOp.cmpi .eq a b).setWidth 32) : EReal) = if a = b then 1 else 0 := by
  show (((((IntOp.cmpi .eq a b).setWidth 32).toInt : ℤ) : ℝ) : EReal) = _
  unfold IntOp.cmpi
  by_cases h : a = b
  · subst h; simp
  · have hb : (a == b) = false := beq_eq_false_iff_ne.mpr h
    rw [if_neg h]
    simp only [hb]
    simp

/-! ### Sums against an indicator -/

theorem onehot_sum_left {n : ℕ} (hi : Fin n) (t : Fin n → EReal) :
    ∑ c : Fin n, (if c = hi then (1 : EReal) else 0) * t c = t hi := by
  simp [ite_mul]

theorem onehot_sum_right {n : ℕ} (lo : Fin n) (t : Fin n → EReal) :
    ∑ l : Fin n, t l * (if l = lo then (1 : EReal) else 0) = t lo := by
  simp [mul_ite]

/-- The sum over the 32 lanes of a channel. -/
theorem lane_sum (src : FVec Ideal S512x17x32 .f32) (h : S512x17x32.Reduces [2] S512x17) (hφ : FKind.Formats .f32)
    (hacc : (0x00000000#32 : BitVec 32) = FKind.add.neutral .f32 hφ) (b : Fin 512) (r : Fin 17) :
    multiReduction .add [2] S512x17 src 0x00000000#32 h hφ hacc (ix2 b r) = ∑ l : Fin 32, src (ix3 b r l) := by
  refine (Ideal.multiReduction_add_single src _ h hφ hacc (ix2 b r)).trans ?_
  exact Finset.sum_congr rfl fun l _ => congrArg src (funext fun a => Fin.ext (match a with | ⟨0,_⟩ => rfl | ⟨1,_⟩ => rfl | ⟨2,_⟩ => rfl))

/-- The sum over the 16 factor channels. -/
theorem chan_sum (src : FVec Ideal S512x16 .f32) (h : S512x16.Reduces [1] S512) (hφ : FKind.Formats .f32)
    (hacc : (0x00000000#32 : BitVec 32) = FKind.add.neutral .f32 hφ) (b : Fin 512) :
    multiReduction .add [1] S512 src 0x00000000#32 h hφ hacc (ix1 b) = ∑ r : Fin 16, src (ix2 b r) := by
  refine (Ideal.multiReduction_add_single src _ h hφ hacc (ix1 b)).trans ?_
  exact Finset.sum_congr rfl fun l _ => congrArg src (funext fun a => Fin.ext (match a with | ⟨0,_⟩ => rfl | ⟨1,_⟩ => rfl))

/-! ### The product of a [512,256] block with a [256,544] block into zero, at an entry -/

theorem lhs_dot_0 (i : S512x544.Idx) (q : dot_S512x256_S256x544_S512x544_1_0_0_1_n_n.contr.Idx) :
    (dot_S512x256_S256x544_S512x544_1_0_0_1_n_n.lhsIdx i q 0).val = (i 0).val := by
  unfold DotDims.lhsIdx
  rw [dif_neg (show ¬(0 : Fin S512x256.rank) ∈ dot_S512x256_S256x544_S512x544_1_0_0_1_n_n.lhsBatch by decide), dif_pos (show (0 : Fin S512x256.rank) ∈ dot_S512x256_S256x544_S512x544_1_0_0_1_n_n.lhsNonContracting by decide)]
  rfl
theorem lhs_dot_1 (i : S512x544.Idx) (q : dot_S512x256_S256x544_S512x544_1_0_0_1_n_n.contr.Idx) :
    (dot_S512x256_S256x544_S512x544_1_0_0_1_n_n.lhsIdx i q 1).val = (q ⟨0, by decide⟩).val :=
  dot_S512x256_S256x544_S512x544_1_0_0_1_n_n.lhsIdx_val_of_single rfl i q
theorem rhs_dot_0 (i : S512x544.Idx) (q : dot_S512x256_S256x544_S512x544_1_0_0_1_n_n.contr.Idx) :
    (dot_S512x256_S256x544_S512x544_1_0_0_1_n_n.rhsIdx i q 0).val = (q ⟨0, by decide⟩).val :=
  dot_S512x256_S256x544_S512x544_1_0_0_1_n_n.rhsIdx_val_of_single rfl i q
theorem rhs_dot_1 (i : S512x544.Idx) (q : dot_S512x256_S256x544_S512x544_1_0_0_1_n_n.contr.Idx) :
    (dot_S512x256_S256x544_S512x544_1_0_0_1_n_n.rhsIdx i q 1).val = (i 1).val := by
  unfold DotDims.rhsIdx
  rw [dif_neg (show ¬(1 : Fin S256x544.rank) ∈ dot_S512x256_S256x544_S512x544_1_0_0_1_n_n.rhsBatch by decide), dif_pos (show (1 : Fin S256x544.rank) ∈ dot_S512x256_S256x544_S512x544_1_0_0_1_n_n.rhsNonContracting by decide)]
  rfl

/-- Entry (b, j) of the product: the sum over the 256 contracted positions. -/
theorem mm_apply (lhs : FVec Ideal S512x256 .bf16) (rhs : FVec Ideal S256x544 .bf16) (b : Fin 512) (j : Fin 544) :
    matmul dot_S512x256_S256x544_S512x544_1_0_0_1_n_n none lhs rhs (constant (F := Ideal) S512x544 .f32 0x00000000#32) (ix2 b j)
      = ∑ c : Fin 256, lhs (ix2 b c) * rhs (ix2 c j) := by
  simp only [matmul]
  rw [Ideal.matmul_constant_zero_apply, ← Equiv.sum_comp (contrEquiv1 dot_S512x256_S256x544_S512x544_1_0_0_1_n_n 256 rfl rfl).symm]
  refine Finset.sum_congr rfl fun c _ => ?_
  have hc := contrEquiv1_symm_val dot_S512x256_S256x544_S512x544_1_0_0_1_n_n 256 rfl rfl c
  have el : dot_S512x256_S256x544_S512x544_1_0_0_1_n_n.lhsIdx (ix2 b j) ((contrEquiv1 dot_S512x256_S256x544_S512x544_1_0_0_1_n_n 256 rfl rfl).symm c) = ix2 b c := funext fun a => Fin.ext (by
    match a with
    | ⟨0, _⟩ => exact lhs_dot_0 _ _
    | ⟨1, _⟩ => exact (lhs_dot_1 _ _).trans hc)
  have er : dot_S512x256_S256x544_S512x544_1_0_0_1_n_n.rhsIdx (ix2 b j) ((contrEquiv1 dot_S512x256_S256x544_S512x544_1_0_0_1_n_n 256 rfl rfl).symm c) = ix2 c j := funext fun a => Fin.ext (by
    match a with
    | ⟨0, _⟩ => exact (rhs_dot_0 _ _).trans hc
    | ⟨1, _⟩ => exact rhs_dot_1 _ _)
  rw [el, er]

/-! ### The layout operations of the body, each read at an index -/

section Layout
variable {α : Type}

theorem sc_row (v : S1x512.Idx → α) (h : S1x512.ShapeCasts S512) (b : Fin 512) :
    shapeCast S512 v h (ix1 b) = v (ix2 0 b) := by
  refine shapeCast_apply v h (ix1 b) (ix2 0 b) ?_
  rw [Shape.rowMajor_val_two, Shape.rowMajor_val_one]
  show 0 * 512 + b.val = b.val
  omega

theorem sc_col (v : S512.Idx → α) (h : S512.ShapeCasts S512x1) (b : Fin 512) (z : Fin 1) :
    shapeCast S512x1 v h (ix2 b z) = v (ix1 b) := by
  refine shapeCast_apply v h (ix2 b z) (ix1 b) ?_
  rw [Shape.rowMajor_val_two, Shape.rowMajor_val_one]
  show b.val = b.val * 1 + z.val
  omega

theorem sc_uncol (v : S512x1.Idx → α) (h : S512x1.ShapeCasts S512) (b : Fin 512) :
    shapeCast S512 v h (ix1 b) = v (ix2 b 0) := by
  refine shapeCast_apply v h (ix1 b) (ix2 b 0) ?_
  rw [Shape.rowMajor_val_two, Shape.rowMajor_val_one]
  show b.val * 1 + 0 = b.val
  omega

theorem bc_col256 (v : S512x1.Idx → α) (h : S512x1.Broadcasts S512x256) (b : Fin 512) (c : Fin 256) :
    broadcastTo S512x256 v h (ix2 b c) = v (ix2 b 0) :=
  broadcastTo_apply v h (ix2 b c) (ix2 b 0) fun a => match a with | ⟨0, _⟩ => rfl | ⟨1, _⟩ => rfl

theorem bc_col32 (v : S512x1.Idx → α) (h : S512x1.Broadcasts S512x32) (b : Fin 512) (l : Fin 32) :
    broadcastTo S512x32 v h (ix2 b l) = v (ix2 b 0) :=
  broadcastTo_apply v h (ix2 b l) (ix2 b 0) fun a => match a with | ⟨0, _⟩ => rfl | ⟨1, _⟩ => rfl

theorem sc_slab (v : S1x256x544.Idx → α) (h : S1x256x544.ShapeCasts S256x544) (c : Fin 256) (j : Fin 544) :
    shapeCast S256x544 v h (ix2 c j) = v (ix3 0 c j) := by
  refine shapeCast_apply v h (ix2 c j) (ix3 0 c j) ?_
  rw [Shape.rowMajor_val_two, Shape.rowMajor_val_three]
  show (0 * 256 + c.val) * 544 + j.val = c.val * 544 + j.val
  omega

theorem sc_split (v : S512x544.Idx → α) (h : S512x544.ShapeCasts S512x17x32) (b : Fin 512) (r : Fin 17) (l : Fin 32) (j : Fin 544)
    (hj : j.val = r.val * 32 + l.val) :
    shapeCast S512x17x32 v h (ix3 b r l) = v (ix2 b j) := by
  refine shapeCast_apply v h (ix3 b r l) (ix2 b j) ?_
  rw [Shape.rowMajor_val_two, Shape.rowMajor_val_three]
  show b.val * 544 + j.val = (b.val * 17 + r.val) * 32 + l.val
  omega

theorem sc_mid (v : S512x32.Idx → α) (h : S512x32.ShapeCasts S512x1x32) (b : Fin 512) (z : Fin 1) (l : Fin 32) :
    shapeCast S512x1x32 v h (ix3 b z l) = v (ix2 b l) := by
  refine shapeCast_apply v h (ix3 b z l) (ix2 b l) ?_
  rw [Shape.rowMajor_val_two, Shape.rowMajor_val_three]
  show b.val * 32 + l.val = (b.val * 1 + z.val) * 32 + l.val
  omega

theorem bc_mid (v : S512x1x32.Idx → α) (h : S512x1x32.Broadcasts S512x17x32) (b : Fin 512) (r : Fin 17) (l : Fin 32) :
    broadcastTo S512x17x32 v h (ix3 b r l) = v (ix3 b 0 l) :=
  broadcastTo_apply v h (ix3 b r l) (ix3 b 0 l) fun a => match a with | ⟨0, _⟩ => rfl | ⟨1, _⟩ => rfl | ⟨2, _⟩ => rfl

theorem sl_16 (v : S512x17.Idx → α) (h : S512x17.Slices ![0, 0] S512x16) (b : Fin 512) (r : Fin 16) :
    extractStridedSlice S512x16 ![0, 0] v h (ix2 b r) = v (ix2 b r.castSucc) :=
  extractStridedSlice_apply ![0, 0] v h (ix2 b r) (ix2 b r.castSucc) fun a => match a with
    | ⟨0, _⟩ => by show b.val = 0 + b.val; omega
    | ⟨1, _⟩ => by show r.val = 0 + r.val; omega

theorem sl_last (v : S512x17.Idx → α) (h : S512x17.Slices ![0, 16] S512x1) (b : Fin 512) (z : Fin 1) :
    extractStridedSlice S512x1 ![0, 16] v h (ix2 b z) = v (ix2 b 16) :=
  extractStridedSlice_apply ![0, 16] v h (ix2 b z) (ix2 b 16) fun a => match a with
    | ⟨0, _⟩ => by show b.val = 0 + b.val; omega
    | ⟨1, _⟩ => by show 16 = 16 + z.val; omega

end Layout

/-! ### The three loads of a trip, read at an index -/

theorem rowI_apply (x : S4x512.Idx → BitVec 32) (k : Fin k0_t1_loop.trips) (kk : Fin 4) (hk : kk.val = k.val) (z : Fin 1) (b : Fin 512) :
    rowI (F := Ideal) k x (ix2 z b) = x (ix2 kk b) := by
  unfold rowI
  show x ((Rect.unit (s := S4x512) (k0_off1 k) S1x512.size (Facts₀.k0_off1_inb k)).idx (ix2 z b)) = _
  refine congrArg x (funext fun a => Fin.ext ?_)
  have e := k0_off1_eq k
  match a with
  | ⟨0, _⟩ => show k0_off1 k 0 + 1 * z.val = kk.val; rw [e]; show k.val + 1 * z.val = kk.val; omega
  | ⟨1, _⟩ => show k0_off1 k 1 + 1 * b.val = b.val; rw [e]; show 0 + 1 * b.val = b.val; omega

theorem rowT_apply (x2 : S4x256x544.Idx → EReal) (k : Fin k0_t1_loop.trips) (kk : Fin 4) (hk : kk.val = k.val) (z : Fin 1) (c : Fin 256) (j : Fin 544) :
    rowT (F := Ideal) k x2 (ix3 z c j) = x2 (ix3 kk c j) := by
  unfold rowT
  show x2 ((Rect.unit (s := S4x256x544) (k0_off2 k) S1x256x544.size (Facts₀.k0_off2_inb k)).idx (ix3 z c j)) = _
  refine congrArg x2 (funext fun a => Fin.ext ?_)
  have e := k0_off2_eq k
  match a with
  | ⟨0, _⟩ => show k0_off2 k 0 + 1 * z.val = kk.val; rw [e]; show k.val + 1 * z.val = kk.val; omega
  | ⟨1, _⟩ => show k0_off2 k 1 + 1 * c.val = c.val; rw [e]; show 0 + 1 * c.val = c.val; omega
  | ⟨2, _⟩ => show k0_off2 k 2 + 1 * j.val = j.val; rw [e]; show 0 + 1 * j.val = j.val; omega

/-! ### The two indicator rows and what they select -/

/-- The gather indicator at (b, c): 1 exactly at the high part of the pair's category. -/
theorem hot_hi (X : IVec S512 32) (h0 : S512x256.Iotas .tc 32 [1]) (h1 : S512.ShapeCasts S512x1) (h2 : S512x1.Broadcasts S512x256)
    (h3 : 1 < 32) (h4 : FTy.bf16.bits < FTy.f32.bits) (b : Fin 512) (c : Fin 256) (hx : (X (ix1 b)).toNat < 8192) :
    (truncf .bf16 (sitofp .f32 (extui 32 (cmpi .eq (iota .tc S512x256 32 [1] h0)
        (broadcastTo S512x256 (shapeCast S512x1 (shrsi X (broadcast S512 5#32)) h1) h2)) h3)) h4 : FVec Ideal S512x256 .bf16) (ix2 b c)
      = if c = Fin.ofNat 256 ((X (ix1 b)).toNat / 32) then 1 else 0 := by
  refine (onehot _ _).trans (if_congr ?_ rfl rfl)
  have e1 : iota .tc S512x256 32 [1] h0 (ix2 b c) = BitVec.ofNat 32 c.val := iota_single_apply .tc S512x256 32 1 h0 (ix2 b c)
  have e2 : broadcastTo S512x256 (shapeCast S512x1 (shrsi X (broadcast S512 5#32)) h1) h2 (ix2 b c) = IntOp.shrsi .vector (X (ix1 b)) 5#32 :=
    (bc_col256 _ h2 b c).trans (sc_col _ h1 b 0)
  rw [e1, e2]
  exact hi_iff _ hx c

/-- The lane indicator at (b, l): 1 exactly at the low part of the pair's category. -/
theorem hot_lo (X : IVec S512 32) (h0 : S512x32.Iotas .tc 32 [1]) (h1 : S512.ShapeCasts S512x1) (h2 : S512x1.Broadcasts S512x32)
    (h3 : 1 < 32) (b : Fin 512) (l : Fin 32) :
    (sitofp .f32 (extui 32 (cmpi .eq (iota .tc S512x32 32 [1] h0)
        (broadcastTo S512x32 (shapeCast S512x1 (andi X (broadcast S512 31#32)) h1) h2)) h3) : FVec Ideal S512x32 .f32) (ix2 b l)
      = if l = Fin.ofNat 32 ((X (ix1 b)).toNat % 32) then 1 else 0 := by
  refine (onehot _ _).trans (if_congr ?_ rfl rfl)
  have e1 : iota .tc S512x32 32 [1] h0 (ix2 b l) = BitVec.ofNat 32 l.val := iota_single_apply .tc S512x32 32 1 h0 (ix2 b l)
  have e2 : broadcastTo S512x32 (shapeCast S512x1 (andi X (broadcast S512 31#32)) h1) h2 (ix2 b l) = IntOp.andi (X (ix1 b)) 31#32 :=
    (bc_col32 _ h2 b l).trans (sc_col _ h1 b 0)
  rw [e1, e2]
  exact lo_iff _ l

/-- The product of the gather indicator with a [256,544] block reads, at (b, j), the block's row at the high part. -/
theorem gather_apply (X : IVec S512 32) (R : FVec Ideal S256x544 .bf16) (h0 : S512x256.Iotas .tc 32 [1]) (h1 : S512.ShapeCasts S512x1)
    (h2 : S512x1.Broadcasts S512x256) (h3 : 1 < 32) (h4 : FTy.bf16.bits < FTy.f32.bits) (b : Fin 512) (j : Fin 544)
    (hx : (X (ix1 b)).toNat < 8192) :
    matmul dot_S512x256_S256x544_S512x544_1_0_0_1_n_n none
        (truncf .bf16 (sitofp .f32 (extui 32 (cmpi .eq (iota .tc S512x256 32 [1] h0)
          (broadcastTo S512x256 (shapeCast S512x1 (shrsi X (broadcast S512 5#32)) h1) h2)) h3)) h4)
        R (constant (F := Ideal) S512x544 .f32 0x00000000#32) (ix2 b j)
      = R (ix2 (Fin.ofNat 256 ((X (ix1 b)).toNat / 32)) j) := by
  refine (mm_apply _ R b j).trans ?_
  refine (Finset.sum_congr rfl fun c _ => congrArg (· * R (ix2 c j)) (hot_hi X h0 h1 h2 h3 h4 b c hx)).trans ?_
  exact onehot_sum_left _ (fun c => R (ix2 c j))

/-- A [512,544] block split into 17 channels of 32 lanes, times a lane indicator, summed over the lanes: the block at
    (b, r·32 + lo). -/
theorem select_apply (G : FVec Ideal S512x544 .f32) (H : FVec Ideal S512x1x32 .f32) (h6 : S512x544.ShapeCasts S512x17x32)
    (h8 : S512x1x32.Broadcasts S512x17x32) (h9 : S512x17x32.Reduces [2] S512x17) (hφ : FKind.Formats .f32)
    (hacc : (0x00000000#32 : BitVec 32) = FKind.add.neutral .f32 hφ) (b : Fin 512) (r : Fin 17) (lo : Fin 32)
    (hlo : ∀ l : Fin 32, H (ix3 b 0 l) = if l = lo then 1 else 0) (j : Fin 544) (hj : j.val = r.val * 32 + lo.val) :
    multiReduction .add [2] S512x17 (mulf (shapeCast S512x17x32 G h6) (broadcastTo S512x17x32 H h8)) 0x00000000#32 h9 hφ hacc (ix2 b r)
      = G (ix2 b j) := by
  refine (lane_sum _ h9 hφ hacc b r).trans ?_
  have hterm : ∀ l : Fin 32, mulf (shapeCast S512x17x32 G h6) (broadcastTo S512x17x32 H h8) (ix3 b r l)
      = G (ix2 b ⟨r.val * 32 + l.val, by have := r.isLt; have := l.isLt; omega⟩) * (if l = lo then 1 else 0) := fun l => by
    show shapeCast S512x17x32 G h6 (ix3 b r l) * broadcastTo S512x17x32 H h8 (ix3 b r l) = _
    rw [sc_split G h6 b r l ⟨r.val * 32 + l.val, by have := r.isLt; have := l.isLt; omega⟩ rfl, bc_mid H h8 b r l, hlo l]
  refine (Finset.sum_congr rfl fun l _ => hterm l).trans ?_
  refine (onehot_sum_right lo (fun l : Fin 32 => G (ix2 b ⟨r.val * 32 + l.val, by have := r.isLt; have := l.isLt; omega⟩))).trans ?_
  exact congrArg G (congrArg (ix2 b) (Fin.ext hj.symm))

/-! ### The payloads of a trip, read at an index -/

theorem pay3_apply (v7 : Vec Ideal S1x512 .i32) (b : Fin 512) : k0_pay3 (F := Ideal) v7 (ix1 b) = v7 (ix2 0 b) := by
  unfold k0_pay3; exact sc_row v7 _ b

theorem pay4_apply (v10 : Vec Ideal S1x512 .i32) (b : Fin 512) : k0_pay4 (F := Ideal) v10 (ix1 b) = v10 (ix2 0 b) := by
  unfold k0_pay4; exact sc_row v10 _ b

theorem pay5_apply (v43 : Vec Ideal S1x256x544 .bf16) (c : Fin 256) (j : Fin 544) :
    k0_pay5 (F := Ideal) v43 (ix2 c j) = v43 (ix3 0 c j) := by
  unfold k0_pay5; exact sc_slab v43 _ c j

/-- Lane `r·32 + n % 32` of the 544, as a natural. -/
theorem lane_index (r : Fin 17) (n : ℕ) :
    (Fin.ofNat 544 (r.val * 32 + n % 32)).val = r.val * 32 + (Fin.ofNat 32 (n % 32)).val := by
  show (r.val * 32 + n % 32) % 544 = r.val * 32 + (n % 32) % 32
  have := r.isLt; omega

/-- The first factor: channel `r` of the slab's row at the first category. -/
theorem pay7_apply (v7 : Vec Ideal S1x512 .i32) (v43 : Vec Ideal S1x256x544 .bf16) (b : Fin 512) (r : Fin 17)
    (hx : (v7 (ix2 0 b)).toNat < 8192) :
    k0_pay7 (F := Ideal) (iota .tc S512x256 32 [1] Facts₀.iota_S512x256_d1_w32) (iota .tc S512x32 32 [1] Facts₀.iota_S512x32_d1_w32) v7 v43 (ix2 b r)
      = v43 (ix3 0 (Fin.ofNat 256 ((v7 (ix2 0 b)).toNat / 32)) (Fin.ofNat 544 (r.val * 32 + (v7 (ix2 0 b)).toNat % 32))) := by
  have hX : k0_pay3 (F := Ideal) v7 (ix1 b) = v7 (ix2 0 b) := pay3_apply v7 b
  rw [← hX] at hx ⊢
  unfold k0_pay7
  refine (select_apply _ _ _ _ _ _ _ b r (Fin.ofNat 32 ((k0_pay3 v7 (ix1 b)).toNat % 32))
    (fun l => (sc_mid _ _ b 0 l).trans (hot_lo (k0_pay3 v7) _ _ _ _ b l))
    (Fin.ofNat 544 (r.val * 32 + (k0_pay3 v7 (ix1 b)).toNat % 32)) (lane_index r _)).trans ?_
  refine (gather_apply (k0_pay3 v7) (k0_pay5 v43) _ _ _ _ _ b _ hx).trans ?_
  exact pay5_apply v43 _ _

/-- The second factor: channel `r` of the slab's row at the second category, as the yield's first lines compute it from
    the gathered rows and the lane indicator. -/
theorem ay_apply (v10 : Vec Ideal S1x512 .i32) (v43 : Vec Ideal S1x256x544 .bf16) (h8 : S512x1x32.Broadcasts S512x17x32)
    (h9 : S512x17x32.Reduces [2] S512x17) (hφ : FKind.Formats .f32) (hacc : (0x00000000#32 : BitVec 32) = FKind.add.neutral .f32 hφ)
    (b : Fin 512) (r : Fin 17) (hy : (v10 (ix2 0 b)).toNat < 8192) :
    multiReduction .add [2] S512x17
        (mulf (k0_pay6 (F := Ideal) (iota .tc S512x256 32 [1] Facts₀.iota_S512x256_d1_w32) v10 v43)
          (broadcastTo S512x17x32 (k0_pay8 (F := Ideal) (iota .tc S512x32 32 [1] Facts₀.iota_S512x32_d1_w32) v10) h8))
        0x00000000#32 h9 hφ hacc (ix2 b r)
      = v43 (ix3 0 (Fin.ofNat 256 ((v10 (ix2 0 b)).toNat / 32)) (Fin.ofNat 544 (r.val * 32 + (v10 (ix2 0 b)).toNat % 32))) := by
  have hY : k0_pay4 (F := Ideal) v10 (ix1 b) = v10 (ix2 0 b) := pay4_apply v10 b
  rw [← hY] at hy ⊢
  unfold k0_pay6 k0_pay8
  refine (select_apply _ _ _ h8 h9 hφ hacc b r (Fin.ofNat 32 ((k0_pay4 v10 (ix1 b)).toNat % 32))
    (fun l => (sc_mid _ _ b 0 l).trans (hot_lo (k0_pay4 v10) _ _ _ _ b l))
    (Fin.ofNat 544 (r.val * 32 + (k0_pay4 v10 (ix1 b)).toNat % 32)) (lane_index r _)).trans ?_
  refine (gather_apply (k0_pay4 v10) (k0_pay5 v43) _ _ _ _ _ b _ hy).trans ?_
  exact pay5_apply v43 _ _

/-- The first factor over the arrays: the table entry of column `kk`, the first category of the pair, channel `r`. -/
theorem ax_trip (x0 : S4x512.Idx → BitVec 32) (x2 : S4x256x544.Idx → EReal) (k : Fin k0_t1_loop.trips) (kk : Fin 4)
    (hk : kk.val = k.val) (b : Fin 512) (r : Fin 17) (hx : (x0 (ix2 kk b)).toNat < 8192) :
    k0_pay7 (F := Ideal) (iota .tc S512x256 32 [1] Facts₀.iota_S512x256_d1_w32) (iota .tc S512x32 32 [1] Facts₀.iota_S512x32_d1_w32)
        (rowI k x0) (rowT k x2) (ix2 b r)
      = tabAt x2 kk (x0 (ix2 kk b)).toNat r.val := by
  have e : rowI (F := Ideal) k x0 (ix2 0 b) = x0 (ix2 kk b) := rowI_apply x0 k kk hk 0 b
  rw [← e] at hx ⊢
  refine (pay7_apply (rowI k x0) (rowT k x2) b r hx).trans ?_
  exact rowT_apply x2 k kk hk 0 _ _

/-- The second factor over the arrays. -/
theorem ay_trip (x1 : S4x512.Idx → BitVec 32) (x2 : S4x256x544.Idx → EReal) (k : Fin k0_t1_loop.trips) (kk : Fin 4)
    (hk : kk.val = k.val) (h8 : S512x1x32.Broadcasts S512x17x32) (h9 : S512x17x32.Reduces [2] S512x17) (hφ : FKind.Formats .f32)
    (hacc : (0x00000000#32 : BitVec 32) = FKind.add.neutral .f32 hφ) (b : Fin 512) (r : Fin 17)
    (hy : (x1 (ix2 kk b)).toNat < 8192) :
    multiReduction .add [2] S512x17
        (mulf (k0_pay6 (F := Ideal) (iota .tc S512x256 32 [1] Facts₀.iota_S512x256_d1_w32) (rowI k x1) (rowT k x2))
          (broadcastTo S512x17x32 (k0_pay8 (F := Ideal) (iota .tc S512x32 32 [1] Facts₀.iota_S512x32_d1_w32) (rowI k x1)) h8))
        0x00000000#32 h9 hφ hacc (ix2 b r)
      = tabAt x2 kk (x1 (ix2 kk b)).toNat r.val := by
  have e : rowI (F := Ideal) k x1 (ix2 0 b) = x1 (ix2 kk b) := rowI_apply x1 k kk hk 0 b
  rw [← e] at hy ⊢
  refine (ay_apply (rowI k x1) (rowT k x2) h8 h9 hφ hacc b r hy).trans ?_
  exact rowT_apply x2 k kk hk 0 _ _

/-- Trip `k` at pair `b`, for categories in range. -/
theorem tripF_apply (x0 x1 : S4x512.Idx → BitVec 32) (x2 : S4x256x544.Idx → EReal)
    (k : Fin k0_t1_loop.trips) (kk : Fin 4) (hk : kk.val = k.val) (acc : S512.Idx → EReal) (b : Fin 512)
    (hx : (x0 (ix2 kk b)).toNat < 8192) (hy : (x1 (ix2 kk b)).toNat < 8192) :
    tripF (F := Ideal) (iota .tc S512x256 32 [1] Facts₀.iota_S512x256_d1_w32) (iota .tc S512x32 32 [1] Facts₀.iota_S512x32_d1_w32)
        x0 x1 x2 k acc (ix1 b)
      = (acc (ix1 b)
          + ∑ r : Fin 16, tabAt x2 kk (x0 (ix2 kk b)).toNat r.val * tabAt x2 kk (x1 (ix2 kk b)).toNat r.val)
        + (if x0 (ix2 kk b) = x1 (ix2 kk b) then tabAt x2 kk (x0 (ix2 kk b)).toNat 16 else 0) := by
  have hX : k0_pay3 (F := Ideal) (rowI k x0) (ix1 b) = x0 (ix2 kk b) :=
    (pay3_apply (rowI k x0) b).trans (rowI_apply x0 k kk hk 0 b)
  have hY : k0_pay4 (F := Ideal) (rowI k x1) (ix1 b) = x1 (ix2 kk b) :=
    (pay4_apply (rowI k x1) b).trans (rowI_apply x1 k kk hk 0 b)
  unfold tripF k0_pay2
  refine (addf_apply _ _ (ix1 b)).trans ?_
  refine congrArg₂ (· + ·) ((addf_apply _ _ (ix1 b)).trans (congrArg (acc (ix1 b) + ·) ?_)) ((mulf_apply _ _ (ix1 b)).trans ?_)
  · -- the inner product of the two factor rows over the 16 factor channels
    refine (chan_sum _ _ _ _ b).trans (Finset.sum_congr rfl fun r _ => ?_)
    refine (mulf_apply _ _ (ix2 b r)).trans (congrArg₂ (· * ·) ?_ ?_)
    · exact (sl_16 _ _ b r).trans (ax_trip x0 x2 k kk hk b r.castSucc hx)
    · exact (sl_16 _ _ b r).trans (ay_trip x1 x2 k kk hk _ _ _ _ b r.castSucc hy)
  · -- the variance channel where the two categories are one word
    have h63 : ∀ p q : BitVec 32, (if p = q then (1 : EReal) else 0) * tabAt x2 kk (x0 (ix2 kk b)).toNat 16
        = if p = q then tabAt x2 kk (x0 (ix2 kk b)).toNat 16 else 0 := fun p q => by
      by_cases h : p = q
      · rw [if_pos h, if_pos h, one_mul]
      · rw [if_neg h, if_neg h, zero_mul]
    refine (congrArg₂ (· * ·) ((onehot _ _).trans (by rw [hX, hY])) ?_).trans (h63 _ _)
    exact (sc_uncol _ _ b).trans ((sl_last _ _ b 0).trans (ax_trip x0 x2 k kk hk b 16 hx))

end Cert.KernelIdeal.Trip

end
-- ==== Proof.KernelSum.lean ====
/-
  What the body stores, read at a pair: the sum over the four columns of the column's term — the inner product of the two
  gathered factor rows plus, where the two category words coincide, the gathered variance.
-/
import proofs.«428445_j32238024524411_3_alg».proof.Proof.LoopFold
import proofs.«428445_j32238024524411_3_alg».proof.Proof.TripValue

noncomputable section

namespace Cert.KernelIdeal.Trip

open Cert.KernelIdeal Cert.KernelIdeal.Gen Idealize.ShloMosaic Idealize.ShloMosaic.ValueIdx

/-- What column `k` adds at pair `b` of a block. -/
def colTerm (x0 x1 : S4x512.Idx → BitVec 32) (x2 : S4x256x544.Idx → EReal) (b : Fin 512) (k : Fin 4) : EReal :=
  (∑ r : Fin 16, tabAt x2 k (x0 (ix2 k b)).toNat r.val * tabAt x2 k (x1 (ix2 k b)).toNat r.val)
    + (if x0 (ix2 k b) = x1 (ix2 k b) then tabAt x2 k (x0 (ix2 k b)).toNat 16 else 0)

/-- The loop starts from the zero vector. -/
theorem init_apply (b : Fin 512) : k0_pay1 (F := Ideal) (ix1 b) = 0 := Ideal.ofBits_zero_f32

/-- The carried vector after the four trips is the four trips composed. -/
theorem accAt_four {F : FTy → Type} [FloatOps F] (v0 : IVec S512x256 32) (v1 : IVec S512x32 32) (x0 x1 : Vec F S4x512 .i32)
    (x2 : Vec F S4x256x544 .bf16) (init : FVec F S512 .f32) (h0 : 0 < k0_t1_loop.trips) (h1 : 1 < k0_t1_loop.trips)
    (h2 : 2 < k0_t1_loop.trips) (h3 : 3 < k0_t1_loop.trips) :
    accAt v0 v1 x0 x1 x2 init 4
      = tripF v0 v1 x0 x1 x2 ⟨3, h3⟩ (tripF v0 v1 x0 x1 x2 ⟨2, h2⟩ (tripF v0 v1 x0 x1 x2 ⟨1, h1⟩ (tripF v0 v1 x0 x1 x2 ⟨0, h0⟩ init))) := by
  simp only [accAt, dif_pos h0, dif_pos h1, dif_pos h2, dif_pos h3]

attribute [local irreducible] tripF accAt

/-- The carried vector after the four trips, at pair `b`, for categories in range: the four columns' terms added up. -/
theorem accAt4_apply (x0 x1 : S4x512.Idx → BitVec 32) (x2 : S4x256x544.Idx → EReal) (b : Fin 512)
    (hx : ∀ k : Fin 4, (x0 (ix2 k b)).toNat < 8192) (hy : ∀ k : Fin 4, (x1 (ix2 k b)).toNat < 8192) :
    accAt (F := Ideal) (iota .tc S512x256 32 [1] Facts₀.iota_S512x256_d1_w32) (iota .tc S512x32 32 [1] Facts₀.iota_S512x32_d1_w32)
        x0 x1 x2 (k0_pay1 (F := Ideal)) 4 (ix1 b)
      = ∑ k : Fin 4, colTerm x0 x1 x2 b k := by
  have ht : k0_t1_loop.trips = 4 := trips_eq
  have h0 : (0 : ℕ) < k0_t1_loop.trips := by omega
  have h1 : (1 : ℕ) < k0_t1_loop.trips := by omega
  have h2 : (2 : ℕ) < k0_t1_loop.trips := by omega
  have h3 : (3 : ℕ) < k0_t1_loop.trips := by omega
  rw [accAt_four (F := Ideal) _ _ x0 x1 x2 _ h0 h1 h2 h3]
  rw [tripF_apply x0 x1 x2 ⟨3, h3⟩ 3 rfl _ b (hx 3) (hy 3)]
  rw [tripF_apply x0 x1 x2 ⟨2, h2⟩ 2 rfl _ b (hx 2) (hy 2)]
  rw [tripF_apply x0 x1 x2 ⟨1, h1⟩ 1 rfl _ b (hx 1) (hy 1)]
  rw [tripF_apply x0 x1 x2 ⟨0, h0⟩ 0 rfl _ b (hx 0) (hy 0)]
  rw [init_apply, Fin.sum_univ_four]
  unfold colTerm
  simp only [zero_add, add_assoc]

/-- WHAT THE BODY STORES, at pair `b`: the four columns' terms over its three input blocks, for categories in range. -/
theorem out_apply (c : Dev nD) (i : grid0.Coords) (arg1 : Memref sig .tc .vmem S4x512 .i32) (harg1 : arg1.IsWhole) (arg2 : Memref sig .tc .vmem S4x512 .i32) (harg2 : arg2.IsWhole) (arg3 : Memref sig .tc .vmem S4x256x544 .bf16) (harg3 : arg3.IsWhole) (arg4 : Memref sig .tc .vmem S512 .f32) (harg4 : arg4.IsWhole)
    (x0 x1 : S4x512.Idx → BitVec 32) (x2 : S4x256x544.Idx → EReal) (b : Fin 512)
    (hx : ∀ k : Fin 4, (x0 (ix2 k b)).toNat < 8192) (hy : ∀ k : Fin 4, (x1 (ix2 k b)).toNat < 8192) :
    out0_A_3 (F := Ideal) c i arg1 harg1 arg2 harg2 arg3 harg3 arg4 harg4 x0 x1 x2 (ix1 b) = ∑ k : Fin 4, colTerm x0 x1 x2 b k := by
  rw [out_eq]
  exact accAt4_apply x0 x1 x2 b hx hy

end Cert.KernelIdeal.Trip

end
-- ==== Proof.HostTable.lean ====
/-
  The arrays the kernel's region finds, read at an index: the transposed category indices and the lane-dense table
  (for high part `h` and column `r·32 + l` of the table: factor `r` of category `h·32 + l`, or its variance when `r = 16`).
-/
import proofs.«428445_j32238024524411_3_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.HostSide

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The argument arrays of the launch, at their literal types. -/
abbrev xArr (c : Dev nD) : S1048576x4.Idx → BitVec 32 := m ((c : Thread nD τ).loc main_arg0)
abbrev yArr (c : Dev nD) : S1048576x4.Idx → BitVec 32 := m ((c : Thread nD τ).loc main_arg1)
abbrev facArr (c : Dev nD) : S4x8192x16.Idx → EReal := m ((c : Thread nD τ).loc main_arg2)
abbrev sdArr (c : Dev nD) : S4x8192.Idx → EReal := m ((c : Thread nD τ).loc main_arg3)
/-- The region's operands as it finds them, at their literal types. -/
abbrev xT (c : Dev nD) : S4x1048576.Idx → BitVec 32 := V m c main_v7
abbrev yT (c : Dev nD) : S4x1048576.Idx → BitVec 32 := V m c main_v8
abbrev tab (c : Dev nD) : S4x256x544.Idx → EReal := V m c main_v6

/-- The squared standard deviations. -/
abbrev tabSq (c : Dev nD) : S4x8192.Idx → EReal :=
  mulf (F := Ideal) (s := S4x8192) (φ := .f32) (sdArr m c) (sdArr m c)
/-- The squares with a trailing unit axis. -/
abbrev tabSqUnit (c : Dev nD) : S4x8192x1.Idx → EReal :=
  broadcastInDim S4x8192x1 ![0, 1] bcast_S4x8192_S4x8192x1_0_1 (tabSq m c)
/-- Factors and square side by side: 17 entries per category. -/
abbrev tabCat (c : Dev nD) : S4x8192x17.Idx → EReal :=
  concatenate S4x8192x17 2 [⟨S4x8192x16, facArr m c⟩, ⟨S4x8192x1, tabSqUnit m c⟩] concatenates_S4x8192x16_S4x8192x1_S4x8192x17_d2
/-- The category split in high part and lane. -/
abbrev tabSplit (c : Dev nD) : S4x256x32x17.Idx → EReal :=
  shapeCast S4x256x32x17 (tabCat m c) shapeCasts_S4x8192x17_S4x256x32x17
/-- Lane and entry exchanged. -/
abbrev tabSwap (c : Dev nD) : S4x256x17x32.Idx → EReal :=
  transpose S4x256x17x32 [0, 1, 3, 2] (tabSplit m c) transposes_S4x256x32x17_S4x256x17x32_0_1_3_2
/-- Entry and lane merged in one lane-dense column. -/
abbrev tabFlat (c : Dev nD) : S4x256x544.Idx → EReal :=
  shapeCast S4x256x544 (tabSwap m c) shapeCasts_S4x256x17x32_S4x256x544

/-- The table operand is the chain of layout operations applied to the factors and the squared deviations. -/
theorem tab_eq (c : Dev nD) :
    (V m c main_v6 : S4x256x544.Idx → EReal)
      = truncf (F := Ideal) (s := S4x256x544) (φ := .f32) .bf16 (tabFlat m c) bitsLt_bf16_f32 := by
  dsimp only [Gen.V, Gen.hostOps0]; after_results; rfl

/-- The first operand of the region is the categories `x` transposed. -/
theorem V_v7_apply (c : Dev nD) (k : Fin 4) (p : Fin 1048576) :
    xT m c (ix2 k p) = xArr m c (ix2 p k) := by
  have e : (V m c main_v7 : S4x1048576.Idx → BitVec 32)
      = transpose S4x1048576 [1, 0] (xArr m c) transposes_S1048576x4_S4x1048576_1_0 := by
    dsimp only [Gen.V, Gen.hostOps0]; after_results
  show (V m c main_v7 : S4x1048576.Idx → BitVec 32) (ix2 k p) = _
  rw [e]
  -- result axis 0 is source axis 1 and result axis 1 is source axis 0
  refine transpose_apply _ _ _ (ix2 k p) (ix2 p k) ?_
  intro b
  match b with
  | ⟨0, _⟩ => rfl
  | ⟨1, _⟩ => rfl

/-- The second operand of the region is the categories `y` transposed. -/
theorem V_v8_apply (c : Dev nD) (k : Fin 4) (p : Fin 1048576) :
    yT m c (ix2 k p) = yArr m c (ix2 p k) := by
  have e : (V m c main_v8 : S4x1048576.Idx → BitVec 32)
      = transpose S4x1048576 [1, 0] (yArr m c) transposes_S1048576x4_S4x1048576_1_0 := by
    dsimp only [Gen.V, Gen.hostOps0]; after_results
  show (V m c main_v8 : S4x1048576.Idx → BitVec 32) (ix2 k p) = _
  rw [e]
  refine transpose_apply _ _ _ (ix2 k p) (ix2 p k) ?_
  intro b
  match b with
  | ⟨0, _⟩ => rfl
  | ⟨1, _⟩ => rfl

/-- The table operand at column `k`, high part `h`, lane `r·32 + l`: factor `r` of category `h·32 + l`, and for `r = 16` that
    category's squared standard deviation. -/
theorem V_v6_apply (c : Dev nD) (k : Fin 4) (h : Fin 256) (r : Fin 17) (l : Fin 32) :
    tab m c (ix3 k h ⟨r.val * 32 + l.val, by omega⟩)
      = if hr : r.val < 16 then facArr m c (ix3 k ⟨h.val * 32 + l.val, by omega⟩ ⟨r.val, hr⟩)
        else sdArr m c (ix2 k ⟨h.val * 32 + l.val, by omega⟩) * sdArr m c (ix2 k ⟨h.val * 32 + l.val, by omega⟩) := by
  show (V m c main_v6 : S4x256x544.Idx → EReal) _ = _
  rw [tab_eq m c]
  show tabFlat m c (ix3 k h (⟨r.val * 32 + l.val, by omega⟩ : Fin 544)) = _
  -- the merged column splits back in entry and lane
  refine (shapeCast_apply (tabSwap m c) shapeCasts_S4x256x17x32_S4x256x544 _ (ix4 k h r l) ?_).trans ?_
  · rw [Shape.rowMajor_val_four, Shape.rowMajor_val_three]
    show ((k.val * 256 + h.val) * 17 + r.val) * 32 + l.val = (k.val * 256 + h.val) * 544 + (r.val * 32 + l.val)
    omega
  -- entry and lane exchanged
  refine (transpose_apply [0, 1, 3, 2] (tabSplit m c) transposes_S4x256x32x17_S4x256x17x32_0_1_3_2 (ix4 k h r l) (ix4 k h l r) ?_).trans ?_
  · intro b
    match b with
    | ⟨0, _⟩ => rfl
    | ⟨1, _⟩ => rfl
    | ⟨2, _⟩ => rfl
    | ⟨3, _⟩ => rfl
  -- high part and lane merged in the category
  refine (shapeCast_apply (tabCat m c) shapeCasts_S4x8192x17_S4x256x32x17 (ix4 k h l r)
    (ix3 k (⟨h.val * 32 + l.val, by omega⟩ : Fin 8192) r) ?_).trans ?_
  · rw [Shape.rowMajor_val_four, Shape.rowMajor_val_three]
    show (k.val * 8192 + (h.val * 32 + l.val)) * 17 + r.val = ((k.val * 256 + h.val) * 32 + l.val) * 17 + r.val
    omega
  -- the last entry is the square, the others are the factors
  by_cases hr : r.val < 16
  · rw [dif_pos hr]
    exact concatenate_pair_apply_left (t := S4x8192x17) (s₁ := S4x8192x16) (s₂ := S4x8192x1) 2 (facArr m c) (tabSqUnit m c)
      concatenates_S4x8192x16_S4x8192x1_S4x8192x17_d2 (ix3 k (⟨h.val * 32 + l.val, by omega⟩ : Fin 8192) r) rfl
      (ix3 k (⟨h.val * 32 + l.val, by omega⟩ : Fin 8192) (⟨r.val, hr⟩ : Fin 16))
      (fun b => match b with
        | ⟨0, _⟩ => rfl
        | ⟨1, _⟩ => rfl
        | ⟨2, _⟩ => rfl)
  · rw [dif_neg hr]
    refine (concatenate_pair_apply_right (t := S4x8192x17) (s₁ := S4x8192x16) (s₂ := S4x8192x1) 2 (facArr m c) (tabSqUnit m c)
      concatenates_S4x8192x16_S4x8192x1_S4x8192x17_d2 (ix3 k (⟨h.val * 32 + l.val, by omega⟩ : Fin 8192) r) rfl rfl
      (ix3 k (⟨h.val * 32 + l.val, by omega⟩ : Fin 8192) (0 : Fin 1)) ?_ ?_).trans ?_
    · intro b hb
      match b, hb with
      | ⟨0, _⟩, _ => rfl
      | ⟨1, _⟩, _ => rfl
      | ⟨2, _⟩, hb => exact absurd rfl hb
    · show 0 + 16 = r.val
      omega
    -- the unit axis is dropped
    refine (broadcastInDim_apply ![0, 1] bcast_S4x8192_S4x8192x1_0_1 (tabSq m c)
      (ix3 k (⟨h.val * 32 + l.val, by omega⟩ : Fin 8192) (0 : Fin 1)) (ix2 k (⟨h.val * 32 + l.val, by omega⟩ : Fin 8192)) ?_).trans ?_
    · intro a
      match a with
      | ⟨0, _⟩ => show k.val = if (4 : Nat) = 1 then 0 else k.val; rw [if_neg (by decide)]
      | ⟨1, _⟩ =>
        show h.val * 32 + l.val = if (8192 : Nat) = 1 then 0 else h.val * 32 + l.val
        rw [if_neg (by decide)]
    rfl

end Cert.KernelIdeal.HostSide

end
-- ==== Proof.KernelValue.lean ====
/-
  From blocks to the array. Grid point `t` stages columns × pairs `512 t … 512 t + 511` of the two transposed index arrays and the
  whole table, and writes back pairs `512 t … 512 t + 511` of the result; the 2048 blocks tile the result array. So the array
  ends holding, at every pair, the sum over the four columns of the column's term over the region's operands.
-/
import proofs.«428445_j32238024524411_3_alg».proof.Proof.Gen.KernelIdeal.Value
import proofs.«428445_j32238024524411_3_alg».proof.Proof.KernelSum
import proofs.«428445_j32238024524411_3_alg».proof.Proof.HostTable

noncomputable section

namespace Cert.KernelIdeal.KValue

open Cert.KernelIdeal Cert.KernelIdeal.Gen Cert.KernelIdeal.Value Cert.KernelIdeal.Trip Cert.KernelIdeal.HostSide
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The input blocks at a grid point, at their literal types. -/
abbrev xblk (c : Dev nD) (t : Fin cfg0.N) : S4x512.Idx → BitVec 32 := iblk m c 0 t
abbrev yblk (c : Dev nD) (t : Fin cfg0.N) : S4x512.Idx → BitVec 32 := iblk m c 1 t
abbrev tblk (c : Dev nD) (t : Fin cfg0.N) : S4x256x544.Idx → EReal := iblk m c 2 t

/-- The printed index maps over the grid: the index blocks move along the pairs with the point, the table block stays. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 3) = 0 ∧ win0_2.index t (1 : Fin 3) = 0 ∧ win0_2.index t (2 : Fin 3) = 0 :=
  (by decide +kernel : ∀ t : Fin grid0.N, _)

theorem t_lt (t : Fin cfg0.N) : t.val < 2048 := Nat.lt_of_lt_of_eq t.isLt N_0

/-- Row `k`, pair `b` of the first index block at point `t` is pair `512 t + b` of the transposed `x`. -/
theorem xblk_apply (c : Dev nD) (t : Fin cfg0.N) (k : Fin 4) (b : Fin 512) :
    xblk m c t (ix2 k b) = xT m c (ix2 k ⟨t.val * 512 + b.val, by have := t_lt t; omega⟩) := by
  obtain ⟨e0, e1, -⟩ := idx_facts t
  show ((cfg0.win 0).blk t).view.read (Elt Ideal) (V m c (Pipeline.arrRef spec0 0)) (ix2 k b) = V m c main_v7 _
  rw [View.read_apply]
  show V m c main_v7 _ = V m c main_v7 _
  congr 1
  funext a
  apply Fin.ext
  match a with
  | ⟨0, _⟩ => show win0_0.index t (0 : Fin 2) * 4 + 1 * k.val = k.val; rw [e0]; omega
  | ⟨1, _⟩ => show win0_0.index t (1 : Fin 2) * 512 + 1 * b.val = t.val * 512 + b.val; rw [e1]; omega

/-- The same for the second index block and `y`. -/
theorem yblk_apply (c : Dev nD) (t : Fin cfg0.N) (k : Fin 4) (b : Fin 512) :
    yblk m c t (ix2 k b) = yT m c (ix2 k ⟨t.val * 512 + b.val, by have := t_lt t; omega⟩) := by
  obtain ⟨-, -, e0, e1, -⟩ := idx_facts t
  show ((cfg0.win 1).blk t).view.read (Elt Ideal) (V m c (Pipeline.arrRef spec0 1)) (ix2 k b) = V m c main_v8 _
  rw [View.read_apply]
  show V m c main_v8 _ = V m c main_v8 _
  congr 1
  funext a
  apply Fin.ext
  match a with
  | ⟨0, _⟩ => show win0_1.index t (0 : Fin 2) * 4 + 1 * k.val = k.val; rw [e0]; omega
  | ⟨1, _⟩ => show win0_1.index t (1 : Fin 2) * 512 + 1 * b.val = t.val * 512 + b.val; rw [e1]; omega

/-- The table block is the whole table at every point. -/
theorem tblk_eq (c : Dev nD) (t : Fin cfg0.N) : tblk m c t = tab m c := by
  obtain ⟨-, -, -, -, e0, e1, e2⟩ := idx_facts t
  funext j
  show ((cfg0.win 2).blk t).view.read (Elt Ideal) (V m c (Pipeline.arrRef spec0 2)) j = V m c main_v6 j
  rw [View.read_apply]
  show V m c main_v6 _ = V m c main_v6 j
  congr 1
  funext a
  apply Fin.ext
  match a with
  | ⟨0, _⟩ => show win0_2.index t (0 : Fin 3) * 4 + 1 * (j 0).val = (j 0).val; rw [e0]; omega
  | ⟨1, _⟩ => show win0_2.index t (1 : Fin 3) * 256 + 1 * (j 1).val = (j 1).val; rw [e1]; omega
  | ⟨2, _⟩ => show win0_2.index t (2 : Fin 3) * 544 + 1 * (j 2).val = (j 2).val; rw [e2]; omega

/-- The result at pair `p`, over the region's operands: the four columns' terms added up. -/
def GKat (c : Dev nD) (p : Fin 1048576) : EReal :=
  ∑ k : Fin 4, ((∑ r : Fin 16, tabAt (tab m c) k (xT m c (ix2 k p)).toNat r.val * tabAt (tab m c) k (yT m c (ix2 k p)).toNat r.val)
    + (if xT m c (ix2 k p) = yT m c (ix2 k p) then tabAt (tab m c) k (xT m c (ix2 k p)).toNat 16 else 0))

/-- The whole result array. -/
def GK (c : Dev nD) : S1048576.Idx → EReal := fun i => GKat m c ⟨(i 0).val, (i 0).isLt⟩

/-- WHAT POINT `t` WRITES BACK is block `t` of `GK`, when the categories are in range. -/
theorem flushed_eq (c : Dev nD) (hx : ∀ (k : Fin 4) (p : Fin 1048576), (xT m c (ix2 k p)).toNat < 8192)
    (hy : ∀ (k : Fin 4) (p : Fin 1048576), (yT m c (ix2 k p)).toNat < 8192) (t : Fin cfg0.N) :
    (dats m 0 c).flushed 3 t = ((cfg0.win 3).blk t).view.read (Elt Ideal) (GK m c) := by
  rw [flushed3_A]
  funext j
  obtain ⟨b, rfl⟩ : ∃ b : Fin 512, j = ix1 b := ⟨j 0, eq_ix1 j⟩
  show out0_A_3 (F := Ideal) c (grid0.coords t) (ms0_0 t) (hs0_0 t) (ms0_1 t) (hs0_1 t) (ms0_2 t) (hs0_2 t) (ms0_3 t) (hs0_3 t)
      (xblk m c t) (yblk m c t) (tblk m c t) (ix1 b) = GK m c (((cfg0.win 3).blk t).view.emb (ix1 b))
  refine (out_apply c (grid0.coords t) (ms0_0 t) (hs0_0 t) (ms0_1 t) (hs0_1 t) (ms0_2 t) (hs0_2 t) (ms0_3 t) (hs0_3 t)
    (xblk m c t) (yblk m c t) (tblk m c t) b (fun k => by rw [xblk_apply]; exact hx k _) (fun k => by rw [yblk_apply]; exact hy k _)).trans ?_
  have he : (⟨((((cfg0.win 3).blk t).view.emb (ix1 b)) 0).val, ((((cfg0.win 3).blk t).view.emb (ix1 b)) 0).isLt⟩ : Fin 1048576)
      = ⟨t.val * 512 + b.val, by have := t_lt t; omega⟩ :=
    Fin.ext (by show win0_3.index t ⟨0, by decide⟩ * 512 + 1 * b.val = t.val * 512 + b.val; rw [idx_pt3]; omega)
  unfold GK GKat colTerm
  rw [he]
  simp only [xblk_apply, yblk_apply, tblk_eq]

end Cert.KernelIdeal.KValue

end
-- ==== Proof.Spec.lean ====
/-
  The mathematical statement both programs compute.

  For every pair `p` and column `c` the inputs name two categories `x[p, c]`, `y[p, c]` among 8192. Column `c` has a
  covariance matrix: a rank-16 product of the factor rows plus the squared standard deviations on the diagonal,
  `cov c n n' = ∑ r, fac[c, n, r] · fac[c, n', r] + (if n = n' then sd[c, n]² else 0)`. The result at pair `p` is the sum over
  the four columns of the covariance entry the pair names. Everything is read on the extended reals.
-/
import Idealize.ShloMosaic.PureOps.Ideal
import Idealize.ShloMosaic.Lib.ValueIdx

noncomputable section

namespace Cert.Spec

open Idealize.ShloMosaic Idealize.ShloMosaic.ValueIdx

/-- The pairs' category indices: one row per pair, one entry per column. -/
abbrev SIdx : Shape := ⟨2, ![1048576, 4]⟩
/-- The low-rank factors: column, category, rank. -/
abbrev SFac : Shape := ⟨3, ![4, 8192, 16]⟩
/-- The standard deviations: column, category. -/
abbrev SStd : Shape := ⟨2, ![4, 8192]⟩
/-- One result per pair. -/
abbrev SOut : Shape := ⟨1, ![1048576]⟩

/-- The category pair `p` names in column `c`, as a natural number (the word read unsigned). -/
def catN (x : SIdx.Idx → BitVec 32) (p : Fin 1048576) (c : Fin 4) : ℕ := (x (ix2 p c)).toNat

/-- The same as an index into the 8192 categories (reduced modulo 8192, which changes nothing for a word in range). -/
def cat (x : SIdx.Idx → BitVec 32) (p : Fin 1048576) (c : Fin 4) : Fin 8192 :=
  ⟨catN x p c % 8192, Nat.mod_lt _ (by decide)⟩

/-- Entry `(n, n')` of column `c`'s covariance: the factors' inner product, plus the variance on the diagonal. -/
def cov (fac : SFac.Idx → EReal) (sd : SStd.Idx → EReal) (c : Fin 4) (n n' : Fin 8192) : EReal :=
  (∑ r : Fin 16, fac (ix3 c n r) * fac (ix3 c n' r)) + (if n = n' then sd (ix2 c n) * sd (ix2 c n) else 0)

/-- The result: per pair, the sum over the columns of the covariance entry the pair names. -/
def G (x y : SIdx.Idx → BitVec 32) (fac : SFac.Idx → EReal) (sd : SStd.Idx → EReal) : SOut.Idx → EReal :=
  fun i => ∑ c : Fin 4, cov fac sd c (cat x (i 0) c) (cat y (i 0) c)

end Cert.Spec

end
-- ==== Proof.Bridge.lean ====
/-
  The kernel's array is the specification. The table entry for category `n` and channel `r` is factor `r` of category `n` (its
  squared standard deviation for `r = 16`), and the transposed index arrays are the index arrays; two categories in range are
  the same word exactly when they are the same category. So each column's term is the covariance entry the pair names.
-/
import proofs.«428445_j32238024524411_3_alg».proof.Proof.KernelValue
import proofs.«428445_j32238024524411_3_alg».proof.Proof.Spec

noncomputable section

namespace Cert.KernelIdeal.KValue

open Cert.KernelIdeal Cert.KernelIdeal.Gen Cert.KernelIdeal.Trip Cert.KernelIdeal.HostSide
open Idealize.ShloMosaic Idealize.ShloMosaic.TcCoe Idealize.ShloMosaic.ValueIdx Idealize.SL.Sem

variable (m : (ℓ : Loc nD τ sig) → Buf (Elt Ideal) ℓ)

/-- The table at category `n`, channel `r`: the factor, or the variance for the last channel. -/
theorem tabAt_tab (c : Dev nD) (k : Fin 4) (n : ℕ) (hn : n < 8192) (r : ℕ) (hr : r < 17) :
    tabAt (tab m c) k n r
      = if h : r < 16 then facArr m c (ix3 k ⟨n, hn⟩ ⟨r, h⟩) else sdArr m c (ix2 k ⟨n, hn⟩) * sdArr m c (ix2 k ⟨n, hn⟩) := by
  have hq : n / 32 < 256 := by omega
  have hl : n % 32 < 32 := Nat.mod_lt _ (by decide)
  have e1 : Fin.ofNat 256 (n / 32) = (⟨n / 32, hq⟩ : Fin 256) := Fin.ext (Nat.mod_eq_of_lt hq)
  have e2 : Fin.ofNat 544 (r * 32 + n % 32) = (⟨(⟨r, hr⟩ : Fin 17).val * 32 + (⟨n % 32, hl⟩ : Fin 32).val, by show r * 32 + n % 32 < 544; omega⟩ : Fin 544) :=
    Fin.ext (Nat.mod_eq_of_lt (by omega))
  have e3 : (⟨(⟨n / 32, hq⟩ : Fin 256).val * 32 + (⟨n % 32, hl⟩ : Fin 32).val, by show n / 32 * 32 + n % 32 < 8192; omega⟩ : Fin 8192) = ⟨n, hn⟩ :=
    Fin.ext (by show n / 32 * 32 + n % 32 = n; omega)
  unfold tabAt
  rw [e1, e2, V_v6_apply m c k ⟨n / 32, hq⟩ ⟨r, hr⟩ ⟨n % 32, hl⟩]
  simp only [e3]

/-- THE KERNEL'S ARRAY IS THE SPECIFICATION of the launch's argument arrays, for categories in range. -/
theorem GK_eq_spec (c : Dev nD) (hx : ∀ (p : Fin 1048576) (k : Fin 4), (xArr m c (ix2 p k)).toNat < 8192)
    (hy : ∀ (p : Fin 1048576) (k : Fin 4), (yArr m c (ix2 p k)).toNat < 8192) :
    GK m c = Cert.Spec.G (xArr m c) (yArr m c) (facArr m c) (sdArr m c) := by
  funext i
  unfold GK GKat Cert.Spec.G
  refine Finset.sum_congr rfl fun k _ => ?_
  rw [V_v7_apply, V_v8_apply]
  have hxk := hx ⟨(i 0).val, (i 0).isLt⟩ k
  have hyk := hy ⟨(i 0).val, (i 0).isLt⟩ k
  have ecx : Cert.Spec.cat (xArr m c) (i 0) k = ⟨(xArr m c (ix2 ⟨(i 0).val, (i 0).isLt⟩ k)).toNat, hxk⟩ :=
    Fin.ext (Nat.mod_eq_of_lt hxk)
  have ecy : Cert.Spec.cat (yArr m c) (i 0) k = ⟨(yArr m c (ix2 ⟨(i 0).val, (i 0).isLt⟩ k)).toNat, hyk⟩ :=
    Fin.ext (Nat.mod_eq_of_lt hyk)
  rw [ecx, ecy]
  unfold Cert.Spec.cov
  congr 1
  · refine Finset.sum_congr rfl fun r _ => ?_
    rw [tabAt_tab m c k _ hxk r.val (by have := r.isLt; omega), tabAt_tab m c k _ hyk r.val (by have := r.isLt; omega),
      dif_pos r.isLt, dif_pos r.isLt]
  · rw [tabAt_tab m c k _ hxk 16 (by decide), dif_neg (by decide)]
    refine if_congr ⟨fun h => Fin.ext (congrArg BitVec.toNat h), fun h => ?_⟩ rfl rfl
    have hv := congrArg Fin.val h
    exact BitVec.eq_of_toNat_eq hv

end Cert.KernelIdeal.KValue

end
-- ==== Proof.KernelRun.lean ====
/-
  The kernel's run, read: the 2048 blocks of 512 pairs tile the result array, so after the run it holds the specification
  of the launch's argument arrays, provided the categories are in range.
-/
import proofs.«428445_j32238024524411_3_alg».proof.Proof.Bridge

noncomputable section

namespace Cert.KernelIdeal.KValue

open Cert.KernelIdeal Cert.KernelIdeal.Gen Cert.KernelIdeal.Value Cert.KernelIdeal.Trip Cert.KernelIdeal.HostSide
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- A pair is in point `t`'s block iff it lies in `512 t … 512 t + 511`. -/
theorem mem_blk (t : Fin cfg0.N) (i : S1048576.Idx) :
    i ∈ ((cfg0.win 3).blk t).view.set ↔ ∀ a : Fin 1, win0_3.index t a * S512.size a ≤ (i a).val ∧ (i a).val < win0_3.index t a * S512.size a + S512.size a := by
  show i ∈ ((View.whole main_v9).slice (win0_3.rect t)).set ↔ _
  rw [View.set_slice_whole, Rect.mem_set_unit]
  exact Iff.rfl

/-- Every pair is in the block of the point `pair / 512`, which writes back. -/
theorem cover (i : S1048576.Idx) : ∃ t : Fin cfg0.N, (cfg0.win 3).flush t = true ∧ i ∈ ((cfg0.win 3).blk t).view.set := by
  have hi : (i 0).val < 1048576 := (i 0).isLt
  have ht : (i 0).val / 512 < cfg0.N := by rw [show cfg0.N = 2048 from N_0]; omega
  have e : win0_3.index ⟨(i 0).val / 512, ht⟩ ⟨0, by decide⟩ = (i 0).val / 512 := idx_pt3 _
  refine ⟨⟨(i 0).val / 512, ht⟩, flush0_3 _, ?_⟩
  rw [mem_blk]
  intro a
  match a with
  | ⟨0, _⟩ =>
    show win0_3.index ⟨(i 0).val / 512, ht⟩ ⟨0, by decide⟩ * 512 ≤ (i 0).val
      ∧ (i 0).val < win0_3.index ⟨(i 0).val / 512, ht⟩ ⟨0, by decide⟩ * 512 + 512
    rw [e]; omega

/-- THE ARRAY after the run, for categories in range. -/
theorem final (c : Dev nD) (hx : ∀ (k : Fin 4) (p : Fin 1048576), (xT m c (ix2 k p)).toNat < 8192)
    (hy : ∀ (k : Fin 4) (p : Fin 1048576), (yT m c (ix2 k p)).toNat < 8192) :
    (dats m 0 c).arrAt 3 cfg0.N = GK m c :=
  (dats m 0 c).arrAt_eq_of_cover 3 (GK m c) (fun t _ => flushed_eq m c hx hy t) cover

/-- THE RUN, READ: the result array at the specification of the argument arrays, the arguments unchanged. -/
theorem run (hin : ∀ c : Dev nD, (∀ (p : Fin 1048576) (k : Fin 4), (xArr m c (ix2 p k)).toNat < 8192)
      ∧ (∀ (p : Fin 1048576) (k : Fin 4), (yArr m c (ix2 p k)).toNat < 8192)) :
    θ_run defs (onTc (τ := τ) (main (F := Ideal))) ⟨m, fun _ => 0, ρ⟩ fun r => ∀ c : Dev nD,
      r.2.mem ((c : Thread nD τ).loc main_v9) = Cert.Spec.G (xArr m c) (yArr m c) (facArr m c) (sdArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
      ⟨(h c).1.trans ((final m c (fun k p => by rw [V_v7_apply]; exact (hin c).1 p k)
          (fun k p => by rw [V_v8_apply]; exact (hin c).2 p k)).trans (GK_eq_spec m c (hin c).1 (hin c).2)), (h c).2⟩)
    (Cert.KernelIdeal.Value.run_blocks m ρ)

end Cert.KernelIdeal.KValue

end
-- ==== Proof.RefValue.lean ====
/-
  The reference read at a pair: for categories in range its gather of the scattered covariance is the covariance entry
  the pair names, and its sum over the second axis the sum over the four columns.
-/
import proofs.«428445_j32238024524411_3_alg».proof.Proof.Spec
import proofs.«428445_j32238024524411_3_alg».proof.Proof.Gen.ReferenceIdeal.Read
import Idealize.ShloMosaic.Lib.ValueIdx
import Idealize.ShloMosaic.Lib.Pipeline.Value
import Idealize.ShloMosaic.Lib.StableHlo.Predicate
import Idealize.ShloMosaic.PureOps.Ideal.Laws

noncomputable section

namespace Cert.ReferenceIdeal.RefValue

open Cert.ReferenceIdeal Cert.ReferenceIdeal.Gen Idealize.ShloMosaic Idealize.ShloMosaic.ValueIdx

/-! ## Words: the negative-index normalisation leaves a small non-negative word alone -/

/-- A word below 2³¹ is not negative read signed, so "add the extent if negative" returns it unchanged. -/
theorem norm_small (w k : BitVec 32) (hw : w.toNat < 2 ^ 31) :
    Scalar.select (IntOp.cmpi .slt w 0#32) (IntOp.addi w k) w = w := by
  have h : ¬ IntOp.cmpi .slt w 0#32 = 1#1 := by
    rw [StableHlo.Predicate.slt_iff_toNat hw (by decide)]
    exact Nat.not_lt_zero _
  rw [eq_zero_of_ne_one h, select_zero]

/-- The word of a number below 2³¹ has that number as its unsigned value. -/
theorem toNat_ofNat_small (n : ℕ) (hn : n < 2 ^ 31) : (BitVec.ofNat 32 n).toNat = n := by
  rw [BitVec.toNat_ofNat]; exact Nat.mod_eq_of_lt (by omega)

/-! ## The diagonal's index pairs: row `n` is `(n, n)` -/

/-- The normalised iota at `n` is the word `n` (first copy). -/
theorem v7_at (i : S8192.Idx) : Read.val_main_v7 (F := Ideal) i = BitVec.ofNat 32 (i 0).val := by
  have hi : (i 0).val < 8192 := (i 0).isLt
  rw [Read.val_main_v7_apply, Read.val_main_v4_apply, Read.val_main_v6_apply, Read.val_main_v3_apply,
    Read.val_main_c_apply, Read.val_main_v1_apply]
  exact norm_small _ _ (by rw [toNat_ofNat_small _ (by omega)]; omega)

/-- The normalised iota at `n` is the word `n` (second copy). -/
theorem v12_at (i : S8192.Idx) : Read.val_main_v12 (F := Ideal) i = BitVec.ofNat 32 (i 0).val := by
  have hi : (i 0).val < 8192 := (i 0).isLt
  rw [Read.val_main_v12_apply, Read.val_main_v9_apply, Read.val_main_v11_apply, Read.val_main_v8_apply,
    Read.val_main_c_1_apply, Read.val_main_v1_apply]
  exact norm_small _ _ (by rw [toNat_ofNat_small _ (by omega)]; omega)

/-- Both entries of row `n` of the scatter's index array are the word `n`. -/
theorem v15_at (n : Fin 8192) (k : Fin 2) :
    Read.val_main_v15 (F := Ideal) (ix2 n k) = BitVec.ofNat 32 n.val := by
  unfold Read.val_main_v15
  match k with
  | ⟨0, _⟩ =>
    refine (concatenate_pair_apply_left (t := S8192x2) (s₁ := S8192x1) (s₂ := S8192x1) (1 : Fin 2)
      (Read.val_main_v13 (F := Ideal)) (Read.val_main_v14 (F := Ideal)) concatenates_S8192x1_S8192x1_S8192x2_d1
      (ix2 n ⟨0, by omega⟩) rfl (ix2 n 0) (fun b => ?_)).trans ?_
    · match b with
      | ⟨0, _⟩ => rfl
      | ⟨1, _⟩ => rfl
    · rw [Read.val_main_v13_apply, v7_at]
  | ⟨1, _⟩ =>
    refine (concatenate_pair_apply_right (t := S8192x2) (s₁ := S8192x1) (s₂ := S8192x1) (1 : Fin 2)
      (Read.val_main_v13 (F := Ideal)) (Read.val_main_v14 (F := Ideal)) concatenates_S8192x1_S8192x1_S8192x2_d1
      (ix2 n ⟨1, by omega⟩) rfl rfl (ix2 n 0) (fun b hb => ?_) rfl).trans ?_
    · match b with
      | ⟨0, _⟩ => rfl
      | ⟨1, _⟩ => exact absurd rfl hb
    · rw [Read.val_main_v14_apply, v12_at]

/-! ## The scatter: update `(c, m)` lands on the diagonal element `(c, m, m)` -/

/-- The scatter's dimension numbers: updates `[4, 8192]`, window axis 0, the index row naming operand axes 1 and 2. -/
abbrev scD : ScatterDims S4x8192x8192 S8192x2 S4x8192 := scatter_S4x8192x8192_S8192x2_S4x8192_0_12_12_1

/-- The operand's first axis is not indexed: the window starts at 0 on it. -/
theorem sc_start0 (j : S4x8192.Idx) (idx : IVec S8192x2 32) : scD.start j idx 0 = 0 := by
  unfold ScatterDims.start
  rw [dif_neg (by decide)]

/-- Where update `j` reads component `k` of its start index: row `j 1` of the index array, entry `k`. -/
theorem sc_siIdx (j : S4x8192.Idx) (k : Fin 2) (h : k.val < scD.scatterDimsToOperandDims.length) :
    scD.siIdx j ⟨k.val, h⟩ = ix2 (j 1) k := by
  funext b
  refine Fin.ext ?_
  match b with
  | ⟨0, _⟩ => rfl
  | ⟨1, _⟩ => rfl

/-- On the operand's second axis the window starts at the first entry of the update's index row, read signed. -/
theorem sc_start1 (j : S4x8192.Idx) (idx : IVec S8192x2 32) :
    scD.start j idx 1 = (idx (ix2 (j 1) 0)).toInt := by
  unfold ScatterDims.start
  rw [dif_pos (by decide)]
  exact congrArg (fun i => (idx i).toInt) (sc_siIdx j 0 _)

/-- On the operand's third axis the window starts at the second entry of the update's index row, read signed. -/
theorem sc_start2 (j : S4x8192.Idx) (idx : IVec S8192x2 32) :
    scD.start j idx 2 = (idx (ix2 (j 1) 1)).toInt := by
  unfold ScatterDims.start
  rw [dif_pos (by decide)]
  exact congrArg (fun i => (idx i).toInt) (sc_siIdx j 1 _)

/-- The update's first coordinate is its window coordinate on the operand's first axis … -/
theorem sc_window0 (j : S4x8192.Idx) : scD.window j 0 = (j 0).val := by
  unfold ScatterDims.window
  rw [dif_pos (by decide)]
  rfl

/-- … and the two other axes are inserted ones: window coordinate 0. -/
theorem sc_window1 (j : S4x8192.Idx) : scD.window j 1 = 0 := by
  unfold ScatterDims.window
  rw [dif_neg (by decide)]

theorem sc_window2 (j : S4x8192.Idx) : scD.window j 2 = 0 := by
  unfold ScatterDims.window
  rw [dif_neg (by decide)]

/-- With row `m` of the index array the pair of words `(m, m)`, update `j = (c, m)` lands at `(c, m, m)`. -/
theorem sc_resultIdx (idx : IVec S8192x2 32) (j : S4x8192.Idx)
    (h0 : idx (ix2 (j 1) 0) = BitVec.ofNat 32 (j 1).val) (h1 : idx (ix2 (j 1) 1) = BitVec.ofNat 32 (j 1).val) :
    scD.resultIdx? j idx = some (ix3 (j 0) (j 1) (j 1)) := by
  have hj0 : (j 0).val < 4 := (j 0).isLt
  have hj1 : (j 1).val < 8192 := (j 1).isLt
  have e0 : scD.start j idx 0 + (scD.window j 0 : ℤ) = ((j 0).val : ℤ) := by
    rw [sc_start0, sc_window0, zero_add]
  have e1 : scD.start j idx 1 + (scD.window j 1 : ℤ) = ((j 1).val : ℤ) := by
    rw [sc_start1, sc_window1, h0, StableHlo.Predicate.toInt_ofNat_small _ (by omega)]; simp
  have e2 : scD.start j idx 2 + (scD.window j 2 : ℤ) = ((j 1).val : ℤ) := by
    rw [sc_start2, sc_window2, h1, StableHlo.Predicate.toInt_ofNat_small _ (by omega)]; simp
  have H : ∀ a, 0 ≤ scD.start j idx a + (scD.window j a : ℤ) ∧
      scD.start j idx a + (scD.window j a : ℤ) < (S4x8192x8192.size a : ℤ) := by
    intro a
    match a with
    | ⟨0, h⟩ =>
      show 0 ≤ scD.start j idx 0 + (scD.window j 0 : ℤ) ∧ scD.start j idx 0 + (scD.window j 0 : ℤ) < ((4 : ℕ) : ℤ)
      rw [e0]; omega
    | ⟨1, h⟩ =>
      show 0 ≤ scD.start j idx 1 + (scD.window j 1 : ℤ) ∧ scD.start j idx 1 + (scD.window j 1 : ℤ) < ((8192 : ℕ) : ℤ)
      rw [e1]; omega
    | ⟨2, h⟩ =>
      show 0 ≤ scD.start j idx 2 + (scD.window j 2 : ℤ) ∧ scD.start j idx 2 + (scD.window j 2 : ℤ) < ((8192 : ℕ) : ℤ)
      rw [e2]; omega
  unfold ScatterDims.resultIdx?
  rw [dif_pos H]
  refine congrArg some (funext fun a => Fin.ext ?_)
  match a with
  | ⟨0, h⟩ => exact (congrArg Int.toNat e0).trans (Int.toNat_natCast _)
  | ⟨1, h⟩ => exact (congrArg Int.toNat e1).trans (Int.toNat_natCast _)
  | ⟨2, h⟩ => exact (congrArg Int.toNat e2).trans (Int.toNat_natCast _)

/-- The updates that land on `(c, n, n')`: the one update `(c, n)` on the diagonal, none off it. -/
theorem sc_sum (idx : IVec S8192x2 32) (hidx : ∀ (m : Fin 8192) (k : Fin 2), idx (ix2 m k) = BitVec.ofNat 32 m.val)
    (upd : S4x8192.Idx → EReal) (c : Fin 4) (n n' : Fin 8192)
    [DecidablePred fun j : S4x8192.Idx => scD.resultIdx? j idx = some (ix3 c n n')] :
    (∑ j ∈ Finset.univ.filter (fun j : S4x8192.Idx => scD.resultIdx? j idx = some (ix3 c n n')), upd j)
      = if n = n' then upd (ix2 c n) else 0 := by
  have hres : ∀ j : S4x8192.Idx, scD.resultIdx? j idx = some (ix3 c n n') ↔ (j = ix2 c n ∧ n = n') := by
    intro j
    rw [sc_resultIdx idx j (hidx _ _) (hidx _ _)]
    constructor
    · intro h
      have h' := Option.some.inj h
      have a0 : j 0 = c := congrFun h' 0
      have a1 : j 1 = n := congrFun h' 1
      have a2 : j 1 = n' := congrFun h' 2
      exact ⟨(eq_ix2 j).trans (congrArg₂ ix2 a0 a1), a1.symm.trans a2⟩
    · rintro ⟨rfl, rfl⟩; rfl
  split
  · next hn =>
    rw [Finset.sum_eq_single_of_mem (ix2 c n)]
    · exact Finset.mem_filter.2 ⟨Finset.mem_univ _, (hres _).2 ⟨rfl, hn⟩⟩
    · intro j hj hne
      exact absurd ((hres j).1 (Finset.mem_filter.1 hj).2).1 hne
  · next hn =>
    refine Finset.sum_eq_zero fun j hj => ?_
    exact absurd ((hres j).1 (Finset.mem_filter.1 hj).2).2 hn

/-- The scattered array at `(c, n, n')` is the covariance entry: the factors' inner product, plus the variance on
    the diagonal. -/
theorem v16_at (x2 : S4x8192x16.Idx → EReal) (x3 : S4x8192.Idx → EReal) (c : Fin 4) (n n' : Fin 8192) :
    Read.val_main_v16 (F := Ideal) x2 x3 (ix3 c n n') = Cert.Spec.cov x2 x3 c n n' := by
  unfold Read.val_main_v16 Cert.Spec.cov
  show Ideal.hostScatterAdd scD (Read.val_main_v0 (F := Ideal) x2) (Read.val_main_v15 (F := Ideal))
    (Read.val_main_v2 (F := Ideal) x3) (ix3 c n n') = _
  unfold Ideal.hostScatterAdd
  refine congrArg₂ (· + ·) ?_ ?_
  · rw [Read.val_main_v0_apply]
    refine Finset.sum_congr rfl fun r _ => ?_
    refine congrArg₂ (· * ·) (congrArg x2 (funext fun a => ?_)) (congrArg x2 (funext fun a => ?_))
    · match a with
      | ⟨0, _⟩ => rfl
      | ⟨1, _⟩ => rfl
      | ⟨2, _⟩ => rfl
    · match a with
      | ⟨0, _⟩ => rfl
      | ⟨1, _⟩ => rfl
      | ⟨2, _⟩ => rfl
  · rw [sc_sum _ (fun m k => v15_at m k)]
    rfl

/-! ## The gather's start indices: `(c, x[p, c], y[p, c])` -/

/-- The normalised column iota at column `c` is the word `c`. -/
theorem v23_at (i : S1x4.Idx) : Read.val_main_v23 (F := Ideal) i = BitVec.ofNat 32 (i 1).val := by
  have hi : (i 1).val < 4 := (i 1).isLt
  rw [Read.val_main_v23_apply, Read.val_main_v20_apply, Read.val_main_v22_apply, Read.val_main_v19_apply,
    Read.val_main_c_3_apply, Read.val_main_v18_apply, Read.val_main_v17_apply]
  exact norm_small (BitVec.ofNat 32 (i 1).val) _ (by rw [toNat_ofNat_small _ (by omega)]; omega)

/-- A first category in range is left alone by the normalisation. -/
theorem v28_at (x0 : S1048576x4.Idx → BitVec 32) (i : S1048576x4.Idx) (h : (x0 i).toNat < 8192) :
    Read.val_main_v28 (F := Ideal) x0 i = x0 i := by
  rw [Read.val_main_v28_apply, Read.val_main_v25_apply, Read.val_main_v27_apply, Read.val_main_v24_apply,
    Read.val_main_c_5_apply]
  exact norm_small _ _ (by omega)

/-- A second category in range is left alone by the normalisation. -/
theorem v33_at (x1 : S1048576x4.Idx → BitVec 32) (i : S1048576x4.Idx) (h : (x1 i).toNat < 8192) :
    Read.val_main_v33 (F := Ideal) x1 i = x1 i := by
  rw [Read.val_main_v33_apply, Read.val_main_v30_apply, Read.val_main_v32_apply, Read.val_main_v29_apply,
    Read.val_main_c_7_apply]
  exact norm_small _ _ (by omega)

/-- The three pieces the start indices are joined from, along their last axis. -/
abbrev v38pieces (x0 x1 : S1048576x4.Idx → BitVec 32) : List ((s : Shape) × (s.Idx → BitVec 32)) :=
  [⟨S1048576x4x1, Read.val_main_v35 (F := Ideal)⟩, ⟨S1048576x4x1, Read.val_main_v36 (F := Ideal) x0⟩,
    ⟨S1048576x4x1, Read.val_main_v37 (F := Ideal) x1⟩]

/-- Entry `k` of the start index of `(p, c)` is piece `k` at `(p, c, 0)`. -/
theorem v38_piece (x0 x1 : S1048576x4.Idx → BitVec 32) (p : Fin 1048576) (c : Fin 4) (k : Fin 3)
    (x : S1048576x4x1.Idx → BitVec 32) (hx : (v38pieces x0 x1)[k.val]'k.isLt = ⟨S1048576x4x1, x⟩) :
    Read.val_main_v38 (F := Ideal) x0 x1 (ix3 p c k) = x (ix3 p c 0) := by
  unfold Read.val_main_v38
  refine concatenate_apply_piece (t := S1048576x4x3) (2 : Fin 3) (v38pieces x0 x1)
    concatenates_S1048576x4x1_S1048576x4x1_S1048576x4x1_S1048576x4x3_d2 (ix3 p c k) k.val k.isLt S1048576x4x1 x hx rfl
    k.val ?_ (ix3 p c 0) (fun b hb => ?_) ?_
  · match k with
    | ⟨0, _⟩ => rfl
    | ⟨1, _⟩ => rfl
    | ⟨2, _⟩ => rfl
  · match b with
    | ⟨0, _⟩ => rfl
    | ⟨1, _⟩ => rfl
    | ⟨2, _⟩ => exact absurd rfl hb
  · show k.val + 0 = k.val
    rfl

/-- The start index's first entry: the column. -/
theorem v38_at0 (x0 x1 : S1048576x4.Idx → BitVec 32) (p : Fin 1048576) (c : Fin 4) :
    Read.val_main_v38 (F := Ideal) x0 x1 (ix3 p c 0) = BitVec.ofNat 32 c.val := by
  rw [v38_piece x0 x1 p c 0 _ rfl, Read.val_main_v35_apply, Read.val_main_v34_apply, v23_at]

/-- The start index's second entry: the first category. -/
theorem v38_at1 (x0 x1 : S1048576x4.Idx → BitVec 32) (p : Fin 1048576) (c : Fin 4)
    (h : (x0 (ix2 p c)).toNat < 8192) :
    Read.val_main_v38 (F := Ideal) x0 x1 (ix3 p c 1) = x0 (ix2 p c) := by
  have e : Read.idx_main_v36 (ix3 p c (0 : Fin 1)) = ix2 p c := funext fun a => by
    match a with
    | ⟨0, _⟩ => rfl
    | ⟨1, _⟩ => rfl
  rw [v38_piece x0 x1 p c 1 _ rfl, Read.val_main_v36_apply, e, v28_at x0 _ h]

/-- The start index's third entry: the second category. -/
theorem v38_at2 (x0 x1 : S1048576x4.Idx → BitVec 32) (p : Fin 1048576) (c : Fin 4)
    (h : (x1 (ix2 p c)).toNat < 8192) :
    Read.val_main_v38 (F := Ideal) x0 x1 (ix3 p c 2) = x1 (ix2 p c) := by
  have e : Read.idx_main_v37 (ix3 p c (0 : Fin 1)) = ix2 p c := funext fun a => by
    match a with
    | ⟨0, _⟩ => rfl
    | ⟨1, _⟩ => rfl
  rw [v38_piece x0 x1 p c 2 _ rfl, Read.val_main_v37_apply, e, v33_at x1 _ h]

/-! ## The gather: in range, the element the start index names -/

/-- The gather's dimension numbers: every operand axis collapsed, one start index of three entries per result element. -/
abbrev gaD : GatherDims S4x8192x8192 S1048576x4x3 S1048576x4 :=
  gather_S4x8192x8192_S1048576x4x3_S1048576x4_n_012_n_n_012_2_111

/-- Where result element `j` reads entry `k` of its start index. -/
theorem ga_siIdx (j : S1048576x4.Idx) (k : Fin 3) (h : k.val < gaD.startIndexMap.length) :
    gaD.siIdx j ⟨k.val, h⟩ = ix3 (j 0) (j 1) k := by
  funext b
  refine Fin.ext ?_
  match b with
  | ⟨0, _⟩ => rfl
  | ⟨1, _⟩ => rfl
  | ⟨2, _⟩ => rfl

/-- On each operand axis the slice starts at the start index's entry, read signed and clamped to the axis. -/
theorem ga_start0 (j : S1048576x4.Idx) (idx : IVec S1048576x4x3 32) :
    gaD.start j idx 0 = min (idx (ix3 (j 0) (j 1) 0)).toInt.toNat 3 := by
  unfold GatherDims.start
  rw [dif_pos (by decide)]
  exact congrArg (fun i => min (idx i).toInt.toNat 3) (ga_siIdx j 0 _)

theorem ga_start1 (j : S1048576x4.Idx) (idx : IVec S1048576x4x3 32) :
    gaD.start j idx 1 = min (idx (ix3 (j 0) (j 1) 1)).toInt.toNat 8191 := by
  unfold GatherDims.start
  rw [dif_pos (by decide)]
  exact congrArg (fun i => min (idx i).toInt.toNat 8191) (ga_siIdx j 1 _)

theorem ga_start2 (j : S1048576x4.Idx) (idx : IVec S1048576x4x3 32) :
    gaD.start j idx 2 = min (idx (ix3 (j 0) (j 1) 2)).toInt.toNat 8191 := by
  unfold GatherDims.start
  rw [dif_pos (by decide)]
  exact congrArg (fun i => min (idx i).toInt.toNat 8191) (ga_siIdx j 2 _)

/-- A start index whose entries, read signed, are in range names the operand element read. -/
theorem ga_operandIdx (j : S1048576x4.Idx) (idx : IVec S1048576x4x3 32) (a0 : Fin 4) (a1 a2 : Fin 8192)
    (h0 : (idx (ix3 (j 0) (j 1) 0)).toInt.toNat = a0.val) (h1 : (idx (ix3 (j 0) (j 1) 1)).toInt.toNat = a1.val)
    (h2 : (idx (ix3 (j 0) (j 1) 2)).toInt.toNat = a2.val) :
    gaD.operandIdx j idx = ix3 a0 a1 a2 := by
  have b0 : a0.val < 4 := a0.isLt
  have b1 : a1.val < 8192 := a1.isLt
  have b2 : a2.val < 8192 := a2.isLt
  funext a
  refine Fin.ext ?_
  match a with
  | ⟨0, _⟩ =>
    show gaD.start j idx 0 + gaD.batchCoord j 0 + gaD.offCoord j 0 = a0.val
    rw [ga_start0, GatherDims.batchCoord_eq_zero _ _ _ (by decide), GatherDims.offCoord_eq_zero _ _ _ (by decide), h0,
      Nat.min_eq_left (by omega), Nat.add_zero]
  | ⟨1, _⟩ =>
    show gaD.start j idx 1 + gaD.batchCoord j 1 + gaD.offCoord j 1 = a1.val
    rw [ga_start1, GatherDims.batchCoord_eq_zero _ _ _ (by decide), GatherDims.offCoord_eq_zero _ _ _ (by decide), h1,
      Nat.min_eq_left (by omega), Nat.add_zero]
  | ⟨2, _⟩ =>
    show gaD.start j idx 2 + gaD.batchCoord j 2 + gaD.offCoord j 2 = a2.val
    rw [ga_start2, GatherDims.batchCoord_eq_zero _ _ _ (by decide), GatherDims.offCoord_eq_zero _ _ _ (by decide), h2,
      Nat.min_eq_left (by omega), Nat.add_zero]

/-- The gathered value at `(p, c)`: column `c`'s covariance entry at the pair's two categories. -/
theorem v39_at (x0 x1 : S1048576x4.Idx → BitVec 32) (x2 : S4x8192x16.Idx → EReal) (x3 : S4x8192.Idx → EReal)
    (hx : ∀ (p : Fin 1048576) (c : Fin 4), (x0 (ix2 p c)).toNat < 8192)
    (hy : ∀ (p : Fin 1048576) (c : Fin 4), (x1 (ix2 p c)).toNat < 8192) (p : Fin 1048576) (c : Fin 4) :
    Read.val_main_v39 (F := Ideal) x0 x1 x2 x3 (ix2 p c)
      = Cert.Spec.cov x2 x3 c (Cert.Spec.cat x0 p c) (Cert.Spec.cat x1 p c) := by
  have hc : c.val < 4 := c.isLt
  have h0 : (Read.val_main_v38 (F := Ideal) x0 x1 (ix3 p c 0)).toInt.toNat = c.val := by
    rw [v38_at0, StableHlo.Predicate.toInt_ofNat_small _ (by omega), Int.toNat_natCast]
  have h1 : (Read.val_main_v38 (F := Ideal) x0 x1 (ix3 p c 1)).toInt.toNat = (Cert.Spec.cat x0 p c).val := by
    rw [v38_at1 x0 x1 p c (hx p c), StableHlo.Predicate.toInt_eq_toNat_of_lt (by have := hx p c; omega), Int.toNat_natCast]
    exact (Nat.mod_eq_of_lt (hx p c)).symm
  have h2 : (Read.val_main_v38 (F := Ideal) x0 x1 (ix3 p c 2)).toInt.toNat = (Cert.Spec.cat x1 p c).val := by
    rw [v38_at2 x0 x1 p c (hy p c), StableHlo.Predicate.toInt_eq_toNat_of_lt (by have := hy p c; omega), Int.toNat_natCast]
    exact (Nat.mod_eq_of_lt (hy p c)).symm
  unfold Read.val_main_v39 Host.gather
  rw [ga_operandIdx (ix2 p c) _ c (Cert.Spec.cat x0 p c) (Cert.Spec.cat x1 p c) h0 h1 h2]
  exact v16_at x2 x3 c _ _

/-- For categories below 8192 the reference's result is the specification. -/
theorem ref_eq (x0 x1 : S1048576x4.Idx → BitVec 32) (x2 : S4x8192x16.Idx → EReal) (x3 : S4x8192.Idx → EReal)
    (hx : ∀ (p : Fin 1048576) (c : Fin 4), (x0 (ix2 p c)).toNat < 8192)
    (hy : ∀ (p : Fin 1048576) (c : Fin 4), (x1 (ix2 p c)).toNat < 8192) :
    Cert.ReferenceIdeal.Read.val_main_v40 (F := Ideal) x0 x1 x2 x3 = Cert.Spec.G x0 x1 x2 x3 := by
  funext i
  rw [Read.val_main_v40_apply, Read.val_main_cst_apply]
  show Ideal.ofBits .f32 0x00000000#32 + _ = ∑ c : Fin 4, _
  rw [Ideal.ofBits_zero_f32, zero_add]
  refine Finset.sum_congr rfl fun c _ => ?_
  have e : Read.idx_main_v40 i c = ix2 (i 0) c := funext fun a => by
    match a with
    | ⟨0, _⟩ => rfl
    | ⟨1, _⟩ => rfl
  rw [e]
  exact v39_at x0 x1 x2 x3 hx hy (i 0) c

end Cert.ReferenceIdeal.RefValue

end
-- ==== Proof.PreDecode.lean ====
/-
  What the precondition says of the category indices: every entry of `x` and of `y`, read as a signed word, is at least
  0 and below 8192, so read unsigned it is below 8192.
-/
import proofs.«428445_j32238024524411_3_alg».proof.Pre_finite_inputs
import proofs.«428445_j32238024524411_3_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreDecode

open Cert.Pre_finite_inputs Idealize.ShloMosaic Idealize.ShloMosaic.ValueIdx

/-- A 32-bit word that, read signed, is at least 0 and below 8192 is below 8192 read unsigned: a signed value that is
    not negative is the unsigned value. -/
theorem toNat_lt_of_signed (a : BitVec 32) (h0 : IntOp.cmpi .sge a 0#32 = 1#1) (h1 : IntOp.cmpi .slt a 8192#32 = 1#1) :
    a.toNat < 8192 := by
  unfold IntOp.cmpi at h0 h1
  rw [StableHlo.Predicate.ofBool_eq_one_iff] at h0 h1
  have e0 : (0#32 : BitVec 32).toInt = 0 := by decide
  have e1 : (8192#32 : BitVec 32).toInt = 8192 := by decide
  simp only [BitVec.sle, BitVec.slt, decide_eq_true_eq, e0, e1] at h0 h1
  rw [BitVec.toInt_eq_toNat_cond] at h0 h1
  have := a.isLt
  split at h0 <;> omega

/-- The rank-0 shape has one index. -/
instance : Subsingleton S_.Idx := ⟨fun a b => funext fun d => d.elim0⟩

/-- What `jnp.all((x >= 0) & (x < 8192))` coming out true says of each entry of `x`: the reduction by `and` over all
    axes is 1 only if the conjunction is 1 at every index; there each comparison is 1, and the broadcast scalar it compares
    with is the constant itself. -/
theorem inrange_of_all (x : IVec S1048576x4 32) (init : IVec S_ 1) (hr : S1048576x4.ReducesTo [0, 1] S_)
    (hu : 0 < S_.numel) (hb : S_.BroadcastsInDim S1048576x4 (![] : Fin 0 → Fin S1048576x4.rank))
    (e : Host.reduce IntOp.andi
          (andi (cmpi .sge x (broadcastInDim S1048576x4 ![] hb (constantI S_ 32 0#32)))
            (cmpi .slt x (broadcastInDim S1048576x4 ![] hb (constantI S_ 32 8192#32)))) init hr hu ix0 = 1#1)
    (p : Fin 1048576) (c : Fin 4) : (x (ix2 p c)).toNat < 8192 := by
  have hall := Host.reduce_andi_all _ init hr hu ix0 e (ix2 p c)
  obtain ⟨hge, hlt⟩ := IntOp.andi_eq_one.1 hall
  exact toNat_lt_of_signed (x (ix2 p c)) hge hlt

/-- Under the precondition every category index is in range. -/
theorem inrange_of_pre (a0 a1 : S1048576x4.Idx → BitVec 32) (a2 : S4x8192x16.Idx → EReal) (a3 : S4x8192.Idx → EReal)
    (h : Cert.Pre_finite_inputs.fn (F := Ideal) a0 a1 a2 a3 = fun _ => 1#1) :
    (∀ (p : Fin 1048576) (c : Fin 4), (a0 (ix2 p c)).toNat < 8192)
      ∧ (∀ (p : Fin 1048576) (c : Fin 4), (a1 (ix2 p c)).toNat < 8192) := by
  have h' := congrFun h ValueIdx.ix0
  unfold Cert.Pre_finite_inputs.fn Cert.Pre_finite_inputs.fn_part1 at h'
  dsimp only at h'
  -- the result is the conjunction ((finite a2 ∧ finite a3) ∧ range a0) ∧ range a1
  obtain ⟨h15, h21⟩ := IntOp.andi_eq_one.1 h'
  obtain ⟨_, h14⟩ := IntOp.andi_eq_one.1 h15
  exact ⟨fun p c => inrange_of_all a0 _ _ _ _ h14 p c, fun p c => inrange_of_all a1 _ _ _ _ h21 p c⟩

end Cert.PreDecode

end
-- ==== Proof.lean ====
/-
  The certificate: the one-hot-matmul gather kernel against the gathered full covariance.

  Under the precondition — the float inputs finite, and every category index at least 0 and below 8192 — both programs
  compute, per pair, the sum over the four columns of the covariance entry the pair names:
  `∑ r, fac[c, x, r] · fac[c, y, r] + (if x = y then sd[c, x]² else 0)`. The kernel gathers the factor rows and the variance by a
  one-hot product over the high part of the category and a one-hot lane sum over its low part, column by column in a
  four-trip loop; the reference builds the whole covariance, adds the variances on its diagonal, and gathers. The two agree on
  the extended reals with no finiteness needed: only `0 · a = 0`, `1 · a = a` and the commutativity and associativity of `+`.
  The frames are the generated ones; the idealization rewrote nothing, so `preserves` is trivial.
-/
import proofs.«428445_j32238024524411_3_alg».proof.Defs
import proofs.«428445_j32238024524411_3_alg».proof.Proof.Gen.Kernel
import proofs.«428445_j32238024524411_3_alg».proof.Proof.Gen.Kernel.Skeleton
import proofs.«428445_j32238024524411_3_alg».proof.Proof.Gen.Kernel.Loops
import proofs.«428445_j32238024524411_3_alg».proof.Proof.Gen.Kernel.Launch
import proofs.«428445_j32238024524411_3_alg».proof.Proof.Gen.Kernel.Points
import proofs.«428445_j32238024524411_3_alg».proof.Proof.Gen.Kernel.Frame
import proofs.«428445_j32238024524411_3_alg».proof.Proof.Gen.KernelIdeal
import proofs.«428445_j32238024524411_3_alg».proof.Proof.Gen.KernelIdeal.Skeleton
import proofs.«428445_j32238024524411_3_alg».proof.Proof.Gen.KernelIdeal.Loops
import proofs.«428445_j32238024524411_3_alg».proof.Proof.Gen.KernelIdeal.Launch
import proofs.«428445_j32238024524411_3_alg».proof.Proof.Gen.KernelIdeal.Points
import proofs.«428445_j32238024524411_3_alg».proof.Proof.Gen.KernelIdeal.Frame
import proofs.«428445_j32238024524411_3_alg».proof.Proof.Gen.ReferenceIdeal
import proofs.«428445_j32238024524411_3_alg».proof.Proof.Gen.Pre_finite_inputs
import proofs.«428445_j32238024524411_3_alg».proof.Proof.Gen.KernelIdeal.Value
import proofs.«428445_j32238024524411_3_alg».proof.Proof.Gen.ReferenceIdeal.Run
import proofs.«428445_j32238024524411_3_alg».proof.Proof.Gen.ReferenceIdeal.Read
import proofs.«428445_j32238024524411_3_alg».proof.Proof.KernelRun
import proofs.«428445_j32238024524411_3_alg».proof.Proof.RefValue
import proofs.«428445_j32238024524411_3_alg».proof.Proof.PreDecode
import Idealize.ShloMosaic.Adequacy
import Idealize.ShloMosaic.Init

noncomputable section

namespace Cert.Proof

open Idealize.ShloMosaic Idealize.ShloMosaic.ValueIdx Idealize.SL.Sem

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Under the precondition the category indices of every device are in range. -/
theorem inrange (m : (ℓ : Loc Cert.KernelIdeal.nD Cert.KernelIdeal.τ Cert.KernelIdeal.sig) → Buf (Elt Ideal) ℓ)
    (h : Cert.Pre_KernelIdeal m) (c : Dev Cert.KernelIdeal.nD) :
    (∀ (p : Fin 1048576) (k : Fin 4), (Cert.KernelIdeal.HostSide.xArr m c (ix2 p k)).toNat < 8192)
      ∧ (∀ (p : Fin 1048576) (k : Fin 4), (Cert.KernelIdeal.HostSide.yArr m c (ix2 p k)).toNat < 8192) :=
  Cert.PreDecode.inrange_of_pre _ _ _ _ (h c)

/-- Both programs end with the specification of the (agreeing) argument arrays. -/
theorem algebraic : Cert.algebraic_KernelIdeal_ReferenceIdeal := by
  intro m ρ m' ρ' hpre hagree
  refine ⟨fun c => Cert.Spec.G (Cert.KernelIdeal.HostSide.xArr m c) (Cert.KernelIdeal.HostSide.yArr m c)
    (Cert.KernelIdeal.HostSide.facArr m c) (Cert.KernelIdeal.HostSide.sdArr m c),
    Cert.KernelIdeal.KValue.run m ρ (inrange m hpre), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, (hagree c).1, (hagree c).2.1, (hagree c).2.2.1, (hagree c).2.2.2]
  exact Cert.ReferenceIdeal.RefValue.ref_eq _ _ _ _ (inrange m hpre c).1 (inrange m hpre c).2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
